-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S_ : Shape := ⟨0, ![]⟩

class Facts : Prop where
  bcast_S_S8732x4 : S_.BroadcastsInDim S8732x4 (![] : Fin 0 → Fin S8732x4.rank)
  reducesTo_S8732x4_S_d0_1 : S8732x4.ReducesTo [0, 1] S_
  h_S_ : 0 < S_.numel
  bcast_S_S8732 : S_.BroadcastsInDim S8732 (![] : Fin 0 → Fin S8732.rank)
  reducesTo_S8732_S_d0 : S8732.ReducesTo [0] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v13 main_v16
  main_v17

def fn {F : FTy → Type} [FloatOps F] (main_arg0 : FVec F S8732x4 .f32) (main_arg1 : FVec F S8732 .f32) (main_arg2 : IVec S8732 32) (main_arg3 : FVec F S2048x4 .f32) (main_arg4 : IVec S2048 32) : IVec S_ 1 :=
  let main_v0 : FVec F S8732x4 .f32 := Host.absf main_arg0
  let main_cst : FVec F S_ .f32 := constant S_ .f32 0x7F800000#32
  let main_v1 : FVec F S8732x4 .f32 := broadcastInDim S8732x4 ![] bcast_S_S8732x4 main_cst
  let main_v2 : IVec S8732x4 1 := cmpf .olt main_v0 main_v1
  let main_c : IVec S_ 1 := constantI S_ 1 1#1
  let main_v3 : IVec S_ 1 := (fun x v => Host.reduce IntOp.andi x v reducesTo_S8732x4_S_d0_1 h_S_) main_v2 main_c
  let main_v4 : FVec F S8732 .f32 := Host.absf main_arg1
  let main_cst_0 : FVec F S_ .f32 := constant S_ .f32 0x7F800000#32
  let main_v5 : FVec F S8732 .f32 := broadcastInDim S8732 ![] bcast_S_S8732 main_cst_0
  let main_v6 : IVec S8732 1 := cmpf .olt main_v4 main_v5
  let main_c_1 : IVec S_ 1 := constantI S_ 1 1#1
  let main_v7 : IVec S_ 1 := (fun x v => Host.reduce IntOp.andi x v reducesTo_S8732_S_d0 h_S_) main_v6 main_c_1
  let main_v8 : IVec S_ 1 := andi main_v3 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg4 main_v14
  let main_c_5 : IVec S_ 1 := constantI S_ 1 1#1
  fn_part1 (F := F) main_v13 main_v15 main_c_5
-- ==== Kernel.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S2048x1 : Shape := ⟨2, ![2048, 1]⟩
abbrev S_ : Shape := ⟨0, ![]⟩
abbrev S10240x4 : Shape := ⟨2, ![10240, 4]⟩
abbrev S10240 : Shape := ⟨1, ![10240]⟩
abbrev S4x10240 : Shape := ⟨2, ![4, 10240]⟩
abbrev S1x10240 : Shape := ⟨2, ![1, 10240]⟩
abbrev S1x1 : Shape := ⟨2, ![1, 1]⟩
abbrev S256x4 : Shape := ⟨2, ![256, 4]⟩
abbrev S256x1 : Shape := ⟨2, ![256, 1]⟩
abbrev S4x2048 : Shape := ⟨2, ![4, 2048]⟩
abbrev S1x2048 : Shape := ⟨2, ![1, 2048]⟩
abbrev S256x2048 : Shape := ⟨2, ![256, 2048]⟩
abbrev S256 : Shape := ⟨1, ![256]⟩
abbrev S1 : Shape := ⟨1, ![1]⟩

abbrev nBuf : Space → Nat
  | .hbm => 16
  | .vmem => 13
  | .smem => 0
  | _ => 0

abbrev bufTy : (tb : Table) → Fin (tcTables nBuf tb) → BufTy
  | .hbm, ⟨0, _⟩ => ⟨S8732x4, .f32⟩
  | .hbm, ⟨1, _⟩ => ⟨S8732, .f32⟩
  | .hbm, ⟨2, _⟩ => ⟨S8732, .i32⟩
  | .hbm, ⟨3, _⟩ => ⟨S2048x4, .f32⟩
  | .hbm, ⟨4, _⟩ => ⟨S2048, .i32⟩
  | .hbm, ⟨5, _⟩ => ⟨S2048x1, .i32⟩
  | .hbm, ⟨6, _⟩ => ⟨S_, .i32⟩
  | .hbm, ⟨7, _⟩ => ⟨S_, .f32⟩
  | .hbm, ⟨8, _⟩ => ⟨S10240x4, .f32⟩
  | .hbm, ⟨9, _⟩ => ⟨S_, .i32⟩
  | .hbm, ⟨10, _⟩ => ⟨S_, .i32⟩
  | .hbm, ⟨11, _⟩ => ⟨S10240, .i32⟩
  | .hbm, ⟨12, _⟩ => ⟨S4x10240, .f32⟩
  | .hbm, ⟨13, _⟩ => ⟨S1x10240, .i32⟩
  | .hbm, ⟨14, _⟩ => ⟨S1x1, .f32⟩
  | .hbm, ⟨15, _⟩ => ⟨S_, .f32⟩
  | .local _ .vmem, ⟨0, _⟩ => ⟨S256x4, .f32⟩
  | .local _ .vmem, ⟨1, _⟩ => ⟨S256x4, .f32⟩
  | .local _ .vmem, ⟨2, _⟩ => ⟨S256x1, .i32⟩
  | .local _ .vmem, ⟨3, _⟩ => ⟨S256x1, .i32⟩
  | .local _ .vmem, ⟨4, _⟩ => ⟨S4x2048, .f32⟩
  | .local _ .vmem, ⟨5, _⟩ => ⟨S4x2048, .f32⟩
  | .local _ .vmem, ⟨6, _⟩ => ⟨S1x2048, .i32⟩
  | .local _ .vmem, ⟨7, _⟩ => ⟨S1x2048, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S256x1, .f32⟩
  | .local _ .vmem, ⟨12, _⟩ => ⟨S256x1, .f32⟩
  | _, _ => ⟨S8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 5], ![false, false]⟩

def k0_cond4 (i : grid0.Coords) : BitVec 1 :=
  let arg0 : BitVec 32 := BitVec.ofNat 32 (i 0).val
  let c7_i32 : BitVec 32 := 7#32
  let v82 : BitVec 1 := Scalar.cmpi .eq arg0 c7_i32
  let arg1 : BitVec 32 := BitVec.ofNat 32 (i 1).val
  let c4_i32_34 : BitVec 32 := 4#32
  let v83 : BitVec 1 := Scalar.cmpi .eq arg1 c4_i32_34
  let v84 : BitVec 1 := Scalar.andi v82 v83
  let v85 : BitVec 32 := Scalar.extui v84
  let c0_i32_35 : BitVec 32 := 0#32
  let v86 : BitVec 1 := Scalar.cmpi .ne v85 c0_i32_35
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S2048_S2048x1 : S2048.ShapeCasts S2048x1
  pads_S8732x4_S10240x4_015080_000 : S8732x4.Pads (![0, 0] : Fin 2 → Nat) ![1508, 0] ![0, 0] S10240x4
  h_S_ : 0 < S_.numel
  pads_S8732_S10240_015080 : S8732.Pads (![0] : Fin 1 → Nat) ![1508] ![0] S10240
  transposes_S10240x4_S4x10240_1_0 : S10240x4.Transposes [1, 0] S4x10240
  shapeCasts_S10240_S1x10240 : S10240.ShapeCasts S1x10240
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4_S256x1_0_0 : ∀ a, (![0, 0] : Fin 2 → Nat) a + S256x1.size a ≤ S256x4.size a
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  inb_S4x2048_S1x2048_0_0 : ∀ a, (![0, 0] : Fin 2 → Nat) a + S1x2048.size a ≤ S4x2048.size a
  h_S1x2048 : 0 < S1x2048.numel
  shapeCasts_S1x2048_S1x2048 : S1x2048.ShapeCasts S1x2048
  inb_S4x2048_S1x2048_1_0 : ∀ a, (![1, 0] : Fin 2 → Nat) a + S1x2048.size a ≤ S4x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  broadcasts_S256x1_S256x2048 : S256x1.Broadcasts S256x2048
  broadcasts_S1x2048_S256x2048 : S1x2048.Broadcasts S256x2048
  inb_S1x2048_S1x2048_0_0 : ∀ a, (![0, 0] : Fin 2 → Nat) a + S1x2048.size a ≤ S1x2048.size a
  reduces_S256x2048_S256 : S256x2048.Reduces [1] S256
  shapeCasts_S256_S256x1 : S256.ShapeCasts S256x1
  natLt_1_32 : 1 < 32
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S2048x4.size a
  hwx0_0 : ∀ i : grid0.Coords, EltTy.bits .f32 = 32 ∨ (Rect.block (s := S2048x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x10240.size a
  hwx0_2 : ∀ i : grid0.Coords, EltTy.bits .f32 = 32 ∨ (Rect.block (s := S4x10240) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x10240.size a
  hwx0_3 : ∀ i : grid0.Coords, EltTy.bits .i32 = 32 ∨ (Rect.block (s := S1x10240) S1x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg3) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S2048x2 : Shape := ⟨2, ![2048, 2]⟩
abbrev S2048x1x2 : Shape := ⟨3, ![2048, 1, 2]⟩
abbrev S8732x2 : Shape := ⟨2, ![8732, 2]⟩
abbrev S1x8732x2 : Shape := ⟨3, ![1, 8732, 2]⟩
abbrev S2048x8732x2 : Shape := ⟨3, ![2048, 8732, 2]⟩
abbrev S_ : Shape := ⟨0, ![]⟩
abbrev S2048x8732x1 : Shape := ⟨3, ![2048, 8732, 1]⟩
abbrev S2048x8732 : Shape := ⟨2, ![2048, 8732]⟩
abbrev S2048x1 : Shape := ⟨2, ![2048, 1]⟩
abbrev S8732x1 : Shape := ⟨2, ![8732, 1]⟩
abbrev S1x8732 : Shape := ⟨2, ![1, 8732]⟩

abbrev nBuf : Space → Nat
  | .hbm => 85
  | .vmem => 0
  | .smem => 0
  | _ => 0

abbrev bufTy : (tb : Table) → Fin (tcTables nBuf tb) → BufTy
  | .hbm, ⟨0, _⟩ => ⟨S8732x4, .f32⟩
  | .hbm, ⟨1, _⟩ => ⟨S8732, .f32⟩
  | .hbm, ⟨2, _⟩ => ⟨S8732, .i32⟩
  | .hbm, ⟨3, _⟩ => ⟨S2048x4, .f32⟩
  | .hbm, ⟨4, _⟩ => ⟨S2048, .i32⟩
  | .hbm, ⟨5, _⟩ => ⟨S2048x2, .f32⟩
  | .hbm, ⟨6, _⟩ => ⟨S2048x1x2, .f32⟩
  | .hbm, ⟨7, _⟩ => ⟨S8732x2, .f32⟩
  | .hbm, ⟨8, _⟩ => ⟨S1x8732x2, .f32⟩
  | .hbm, ⟨9, _⟩ => ⟨S2048x8732x2, .f32⟩
  | .hbm, ⟨10, _⟩ => ⟨S2048x8732x2, .f32⟩
  | .hbm, ⟨11, _⟩ => ⟨S2048x8732x2, .f32⟩
  | .hbm, ⟨12, _⟩ => ⟨S2048x2, .f32⟩
  | .hbm, ⟨13, _⟩ => ⟨S2048x1x2, .f32⟩
  | .hbm, ⟨14, _⟩ => ⟨S8732x2, .f32⟩
  | .hbm, ⟨15, _⟩ => ⟨S1x8732x2, .f32⟩
  | .hbm, ⟨16, _⟩ => ⟨S2048x8732x2, .f32⟩
  | .hbm, ⟨17, _⟩ => ⟨S2048x8732x2, .f32⟩
  | .hbm, ⟨18, _⟩ => ⟨S2048x8732x2, .f32⟩
  | .hbm, ⟨19, _⟩ => ⟨S2048x8732x2, .f32⟩
  | .hbm, ⟨20, _⟩ => ⟨S_, .f32⟩
  | .hbm, ⟨21, _⟩ => ⟨S_, .f32⟩
  | .hbm, ⟨22, _⟩ => ⟨S2048x8732x2, .f32⟩
  | .hbm, ⟨23, _⟩ => ⟨S2048x8732x2, .f32⟩
  | .hbm, ⟨24, _⟩ => ⟨S2048x8732x1, .f32⟩
  | .hbm, ⟨25, _⟩ => ⟨S2048x8732, .f32⟩
  | .hbm, ⟨26, _⟩ => ⟨S2048x8732x1, .f32⟩
  | .hbm, ⟨27, _⟩ => ⟨S2048x8732, .f32⟩
  | .hbm, ⟨28, _⟩ => ⟨S2048x8732, .f32⟩
  | .hbm, ⟨29, _⟩ => ⟨S2048x1, .f32⟩
  | .hbm, ⟨30, _⟩ => ⟨S2048, .f32⟩
  | .hbm, ⟨31, _⟩ => ⟨S2048x1, .f32⟩
  | .hbm, ⟨32, _⟩ => ⟨S2048, .f32⟩
  | .hbm, ⟨33, _⟩ => ⟨S2048, .f32⟩
  | .hbm, ⟨34, _⟩ => ⟨S2048x1, .f32⟩
  | .hbm, ⟨35, _⟩ => ⟨S2048, .f32⟩
  | .hbm, ⟨36, _⟩ => ⟨S2048x1, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S8732x1, .f32⟩
  | .hbm, ⟨41, _⟩ => ⟨S8732, .f32⟩
  | .hbm, ⟨42, _⟩ => ⟨S8732x1, .f32⟩
  | .hbm, ⟨43, _⟩ => ⟨S8732, .f32⟩
  | .hbm, ⟨44, _⟩ => ⟨S8732, .f32⟩
  | .hbm, ⟨45, _⟩ => ⟨S8732x1, .f32⟩
  | .hbm, ⟨46, _⟩ => ⟨S8732, .f32⟩
  | .hbm, ⟨47, _⟩ => ⟨S8732x1, .f32⟩
  | .hbm, ⟨48, _⟩ => ⟨S8732, .f32⟩
  | .hbm, ⟨49, _⟩ => ⟨S8732, .f32⟩
  | .hbm, ⟨50, _⟩ => ⟨S8732, .f32⟩
  | .hbm, ⟨51, _⟩ => ⟨S2048x1, .f32⟩
  | .hbm, ⟨52, _⟩ => ⟨S1x8732, .f32⟩
  | .hbm, ⟨53, _⟩ => ⟨S2048x8732, .f32⟩
  | .hbm, ⟨54, _⟩ => ⟨S2048x8732, .f32⟩
  | .hbm, ⟨55, _⟩ => ⟨S2048x8732, .f32⟩
  | .hbm, ⟨56, _⟩ => ⟨S2048x8732, .f32⟩
  | .hbm, ⟨57, _⟩ => ⟨S2048x8732, .f32⟩
  | .hbm, ⟨58, _⟩ => ⟨S2048x1, .i32⟩
  | .hbm, ⟨59, _⟩ => ⟨S1x8732, .i32⟩
  | .hbm, ⟨60, _⟩ => ⟨S2048x8732, .i32⟩
  | .hbm, ⟨61, _⟩ => ⟨S2048x8732, .i32⟩
  | .hbm, ⟨62, _⟩ => ⟨S2048x8732, .i1⟩
  | .hbm, ⟨63, _⟩ => ⟨S_, .f32⟩
  | .hbm, ⟨64, _⟩ => ⟨S_, .f32⟩
  | .hbm, ⟨65, _⟩ => ⟨S2048x8732, .f32⟩
  | .hbm, ⟨66, _⟩ => ⟨S2048x8732, .f32⟩
  | .hbm, ⟨67, _⟩ => ⟨S_, .f32⟩
  | .hbm, ⟨68, _⟩ => ⟨S2048, .f32⟩
  | .hbm, ⟨69, _⟩ => ⟨S_, .i1⟩
  | .hbm, ⟨70, _⟩ => ⟨S2048, .i1⟩
  | .hbm, ⟨71, _⟩ => ⟨S2048, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S_, .f32⟩
  | .hbm, ⟨84, _⟩ => ⟨S_, .f32⟩
  | _, _ => ⟨S8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_0 : Ref sig .tc := ⟨.hbm, 63, rfl⟩
abbrev main_call1_v0 : Ref sig .tc := ⟨.hbm, 64, rfl⟩
abbrev main_call1_v1 : Ref sig .tc := ⟨.hbm, 65, rfl⟩
abbrev main_v55 : Ref sig .tc := ⟨.hbm, 66, rfl⟩
abbrev main_cst_1 : Ref sig .tc := ⟨.hbm, 67, rfl⟩
abbrev main_v56 : Ref sig .tc := ⟨.hbm, 68, rfl⟩
abbrev main_c : Ref sig .tc := ⟨.hbm, 69, rfl⟩
abbrev main_v57 : Ref sig .tc := ⟨.hbm, 70, rfl⟩
abbrev main_v58 : Ref sig .tc := ⟨.hbm, 71, rfl⟩
abbrev main_c_2 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_call2_v0 : Ref sig .tc := ⟨.hbm, 79, rfl⟩
abbrev main_call2_v1 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]

class Facts₀ : Prop where
  slices_S2048x4_S2048x2_0_0 : S2048x4.Slices ![0, 0] S2048x2
  bcast_S2048x2_S2048x1x2_0_2 : S2048x2.BroadcastsInDim S2048x1x2 (![0, 2] : Fin 2 → Fin S2048x1x2.rank)
  slices_S8732x4_S8732x2_0_0 : S8732x4.Slices ![0, 0] S8732x2
  bcast_S8732x2_S1x8732x2_1_2 : S8732x2.BroadcastsInDim S1x8732x2 (![1, 2] : Fin 2 → Fin S1x8732x2.rank)
  bcast_S2048x1x2_S2048x8732x2_0_1_2 : S2048x1x2.BroadcastsInDim S2048x8732x2 (![0, 1, 2] : Fin 3 → Fin S2048x8732x2.rank)
  bcast_S1x8732x2_S2048x8732x2_0_1_2 : S1x8732x2.BroadcastsInDim S2048x8732x2 (![0, 1, 2] : Fin 3 → Fin S2048x8732x2.rank)
  slices_S2048x4_S2048x2_0_2 : S2048x4.Slices ![0, 2] S2048x2
  slices_S8732x4_S8732x2_0_2 : S8732x4.Slices ![0, 2] S8732x2
  bcast_S_S2048x8732x2 : S_.BroadcastsInDim S2048x8732x2 (![] : Fin 0 → Fin S2048x8732x2.rank)
  slices_S2048x8732x2_S2048x8732x1_0_0_0 : S2048x8732x2.Slices ![0, 0, 0] S2048x8732x1
  shapeCasts_S2048x8732x1_S2048x8732 : S2048x8732x1.ShapeCasts S2048x8732
  slices_S2048x8732x2_S2048x8732x1_0_0_1 : S2048x8732x2.Slices ![0, 0, 1] S2048x8732x1
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S2048_S2048x1_0 : S2048.BroadcastsInDim S2048x1 (![0] : Fin 1 → Fin S2048x1.rank)
  bcast_S8732_S1x8732_1 : S8732.BroadcastsInDim S1x8732 (![1] : Fin 1 → Fin S1x8732.rank)
  bcast_S2048x1_S2048x8732_0_1 : S2048x1.BroadcastsInDim S2048x8732 (![0, 1] : Fin 2 → Fin S2048x8732.rank)
  bcast_S1x8732_S2048x8732_0_1 : S1x8732.BroadcastsInDim S2048x8732 (![0, 1] : Fin 2 → Fin S2048x8732.rank)
  bcast_S_S2048x8732 : S_.BroadcastsInDim S2048x8732 (![] : Fin 0 → Fin S2048x8732.rank)
  reducesTo_S2048x8732_S2048_d1 : S2048x8732.ReducesTo [1] S2048
  h_S_ : 0 < S_.numel
  natLt_1_32 : 1 < 32
  reducesTo_S2048_S_d0 : S2048.ReducesTo [0] S_
  bcast_S_S2048 : S_.BroadcastsInDim S2048 (![] : Fin 0 → Fin S2048.rank)

variable [Facts₀]

class Facts : Prop extends Facts₀ where

variable [Facts]
-- ==== Proof.Spec.lean ====
/-
  The mathematics both programs compute, stated once over plain index types.

  Objects `o` carry a corner box `bx o` = (x1, y1, x2, y2) and a label word `lb o`; detections `d` carry a box
  `dx d` and a label word `dl d`.  For an object, `best` is the largest intersection-over-union against the
  detections of its own label (−∞ when there is none), `has` says there is such a detection, and the loss is
  the sum of `1 − best` over the matched objects divided by their number.  All arithmetic is on the extended
  reals, with the operations' ideal readings.
-/
import Idealize.ShloMosaic.PureOps.Ideal
import Idealize.ShloMosaic.Lib.ValueIdx

noncomputable section

namespace Cert.Spec

open Idealize.ShloMosaic
open Classical

/-- The word of `1.0` read at the ideal instance (the same word on both sides; never evaluated). -/
abbrev one32 : EReal := Ideal.ofBits .f32 0x3F800000#32

/-- Intersection over union of the boxes (x1, y1, x2, y2) and (a1, b1, a2, b2): the clipped overlap widths'
    product over the two areas' sum less that product. -/
def iou (x1 y1 x2 y2 a1 b1 a2 b2 : EReal) : EReal :=
  Ideal.div (max (min x2 a2 - max x1 a1) 0 * max (min y2 b2 - max y1 b1) 0)
    ((x2 - x1) * (y2 - y1) + (a2 - a1) * (b2 - b1)
      - max (min x2 a2 - max x1 a1) 0 * max (min y2 b2 - max y1 b1) 0)

/-- The maximum of a finite family, starting from −∞. -/
def supF {ι : Type} [Fintype ι] (f : ι → EReal) : EReal := (Finset.univ : Finset ι).fold max ⊥ f

section
variable {O D : Type} [Fintype O] [Fintype D]
variable (bx : O → Fin 4 → EReal) (lb : O → BitVec 32) (dx : D → Fin 4 → EReal) (dl : D → BitVec 32)

/-- The overlap of object `o` with detection `d` where their labels agree, −∞ elsewhere. -/
def masked (o : O) (d : D) : EReal :=
  if lb o = dl d then iou (bx o 0) (bx o 1) (bx o 2) (bx o 3) (dx d 0) (dx d 1) (dx d 2) (dx d 3) else ⊥

/-- The best overlap of object `o` among the detections of its label. -/
def best (o : O) : EReal := supF (masked bx lb dx dl o)

/-- Object `o` has a detection of its label. -/
def has (o : O) : Prop := ∃ d, lb o = dl d

/-- What object `o` adds to the loss. -/
def contrib (o : O) : EReal := if has lb dl o then one32 - best bx lb dx dl o else 0

/-- The number of matched objects. -/
def cnt : ℕ := (Finset.univ.filter (has lb dl)).card

/-- The loss: the matched objects' `1 − best`, averaged. -/
def loss : EReal := Ideal.div (∑ o, contrib bx lb dx dl o) (((cnt lb dl : ℕ) : ℝ) : EReal)

end

end Cert.Spec

end
-- ==== Proof.Tiles.lean ====
/-
  The two programs' common mathematics cut the way the kernel walks it: the 2048 objects in 8 tiles of 256 rows,
  the 10240 (padded) detections in 5 tiles of 2048 lanes.  `part…` are the quantities accumulated after the first
  `n` tiles of an axis; a tile's own share is stated over the blocks the kernel body reads (`blk…`).
-/
import proofs.«150649_j31619549233713_1_alg».proof.Proof.Spec

noncomputable section

namespace Cert.Spec

open Idealize.ShloMosaic Idealize.ShloMosaic.ValueIdx
open Classical

/-- Row `r` of object tile `i` is object `256 i + r`. -/
def oIdx (i : Fin 8) (r : Fin 256) : Fin 2048 := ⟨256 * i.val + r.val, by omega⟩

/-- Lane `q` of detection tile `j` is (padded) detection `2048 j + q`. -/
def dIdx (j : Fin 5) (q : Fin 2048) : Fin 10240 := ⟨2048 * j.val + q.val, by omega⟩

/-- A flag as the kernel keeps it: one where the proposition holds, zero where not. -/
def flag (p : Prop) : EReal := if p then 1 else 0

section Whole
variable (bx : Fin 2048 → Fin 4 → EReal) (lb : Fin 2048 → BitVec 32)
variable (dx : Fin 10240 → Fin 4 → EReal) (dl : Fin 10240 → BitVec 32)

/-- Object `o`'s best overlap inside detection tile `j`. -/
def tileBest (o : Fin 2048) (j : Fin 5) : EReal := supF fun q : Fin 2048 => masked bx lb dx dl o (dIdx j q)

/-- Object `o` has a detection of its label inside detection tile `j`. -/
def tileHas (o : Fin 2048) (j : Fin 5) : Prop := ∃ q : Fin 2048, lb o = dl (dIdx j q)

/-- Object `o`'s best overlap over the first `n` detection tiles. -/
def partBest (n : ℕ) (o : Fin 2048) : EReal := supF fun j : Fin 5 => if j.val < n then tileBest bx lb dx dl o j else ⊥

/-- Object `o` has a detection of its label among the first `n` detection tiles. -/
def partHas (n : ℕ) (o : Fin 2048) : Prop := ∃ j : Fin 5, j.val < n ∧ tileHas lb dl o j

/-- The loss's numerator over the first `n` object tiles. -/
def partSum (n : ℕ) : EReal :=
  ∑ i : Fin 8, if i.val < n then ∑ r : Fin 256, contrib bx lb dx dl (oIdx i r) else 0

/-- The number of matched objects in the first `n` object tiles, as the kernel adds it up (a sum of flags). -/
def partCnt (n : ℕ) : EReal :=
  ∑ i : Fin 8, if i.val < n then ∑ r : Fin 256, flag (has lb dl (oIdx i r)) else 0

end Whole

section Block
variable (x0 : Vec Ideal ⟨2, ![256, 4]⟩ .f32) (x1 : Vec Ideal ⟨2, ![256, 1]⟩ .i32)
variable (x2 : Vec Ideal ⟨2, ![4, 2048]⟩ .f32) (x3 : Vec Ideal ⟨2, ![1, 2048]⟩ .i32)

/-- Inside one grid point: row `r` of the object block against lane `q` of the detection block. -/
def blkMasked (r : Fin 256) (q : Fin 2048) : EReal :=
  if x1 (ix2 r 0) = x3 (ix2 0 q) then
    iou (x0 (ix2 r 0)) (x0 (ix2 r 1)) (x0 (ix2 r 2)) (x0 (ix2 r 3)) (x2 (ix2 0 q)) (x2 (ix2 1 q)) (x2 (ix2 2 q)) (x2 (ix2 3 q))
  else ⊥

/-- Row `r`'s best overlap inside the point's detection block. -/
def blkBest (r : Fin 256) : EReal := supF (blkMasked x0 x1 x2 x3 r)

/-- Row `r` has a detection of its label inside the point's detection block. -/
def blkHas (r : Fin 256) : Prop := ∃ q : Fin 2048, x1 (ix2 r 0) = x3 (ix2 0 q)

end Block

/-- What an object tile adds to the numerator, from its rows' running maxima `mx` and flags `an`. -/
def blkSum (mx an : Fin 256 → EReal) : EReal := ∑ r : Fin 256, if 0 < an r then one32 - mx r else 0

/-- How many of an object tile's rows are flagged. -/
def blkCnt (an : Fin 256 → EReal) : EReal := ∑ r : Fin 256, if 0 < an r then 1 else 0

end Cert.Spec

end
-- ==== Proof.PayApply.lean ====
/-
  The kernel body's arithmetic read at an index, at the ideal instance (a float is an extended real, the float
  operations are the order's and the field's own): the initial values of the running maximum, running flag and
  the two accumulators; an object tile's share of the numerator and of the count, as sums over its rows; the
  final quotient; a detection tile's update of a row's running flag and running maximum.
-/
import proofs.«150649_j31619549233713_1_alg».proof.Proof.Gen.KernelIdeal.Skeleton
import proofs.«150649_j31619549233713_1_alg».proof.Proof.Tiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Spec

/-- The word of negative infinity denotes the bottom element of the extended reals. -/
theorem ofBits_neg_inf : Ideal.ofBits .f32 0xFF800000#32 = (⊥ : EReal) := by
  simp [Ideal.ofBits, Ideal.ieee]

/-- The named constant "neg_big" is the bottom element at the ideal instance. -/
theorem neg_big_eq : (Named.named (F := Ideal) κ "neg_big" (φ := .f32) 0xF149F2CA#32 : EReal) = ⊥ :=
  IdealRules.named_const.ideal_named_scalar _ _ _ _ rfl

/-- A select on the bit of an ordered "greater than" comparison is an if on the order. -/
theorem select_cmp_ogt {α : Type} (x y : EReal) (a b : α) :
    Scalar.select (Ideal.cmp .ogt x y) a b = if y < x then a else b := by
  unfold Scalar.select Ideal.cmp
  by_cases h : y < x <;> simp [h]

theorem pay8_apply (r : Fin 256) : k0_pay8 (F := Ideal) (ix2 r 0) = ⊥ := by
  unfold k0_pay8
  rw [shapeCast_self]
  exact neg_big_eq

theorem pay9_apply (r : Fin 256) : k0_pay9 (F := Ideal) (ix2 r 0) = 0 := by
  unfold k0_pay9
  rw [shapeCast_self]
  exact Ideal.ofBits_zero_f32

theorem pay6_apply : k0_pay6 (F := Ideal) (ix2 0 0) = 0 := by
  unfold k0_pay6
  rw [shapeCast_self]
  exact Ideal.ofBits_zero_f32

theorem pay7_apply : k0_pay7 (F := Ideal) (ix2 0 0) = 0 := by
  unfold k0_pay7
  rw [shapeCast_self]
  exact Ideal.ofBits_zero_f32

theorem pay5_apply (a b : Vec Ideal S1x1 .f32) : k0_pay5 (F := Ideal) a b (ix2 0 0) = Ideal.div (a (ix2 0 0)) (b (ix2 0 0)) := rfl

/-- The index a reduction over the rows puts back: row `k`, column 0. -/
theorem lift_rows (j : S1.Idx) (k : Fin 256) : (reduces_S256x1_S1.lift j k : S256x1.Idx) = ix2 k 0 := by
  funext a
  match a with
  | ⟨0, _⟩ => rfl
  | ⟨1, _⟩ => exact (Subsingleton.elim _ _ : (_ : Fin 1) = _)

theorem pay3_apply (v87 v90 : Vec Ideal S256x1 .f32) (v101 : Vec Ideal S1x1 .f32) :
    k0_pay3 (F := Ideal) v87 v90 v101 (ix2 0 0)
      = v101 (ix2 0 0) + blkSum (fun r => v90 (ix2 r 0)) (fun r => v87 (ix2 r 0)) := by
  unfold k0_pay3
  rw [shapeCast_self]
  show v101 (ix2 0 0) + shapeCast S1x1 _ shapeCasts_S1_S1x1 (ix2 0 0) = _
  congr 1
  refine (shapeCast_a_1a_apply _ _ 0 0).trans ?_
  refine (Ideal.multiReduction_add_single _ _ reduces_S256x1_S1 _ _ _).trans ?_
  unfold blkSum
  change ∑ k : Fin 256, _ = ∑ k : Fin 256, _
  refine Finset.sum_congr rfl fun k _ => ?_
  show Scalar.select (Ideal.cmp .ogt (v87 (reduces_S256x1_S1.lift (ix1 0) k)) (Ideal.ofBits .f32 0x00000000#32))
      (one32 - v90 (reduces_S256x1_S1.lift (ix1 0) k)) (Ideal.ofBits .f32 0x00000000#32) = _
  rw [lift_rows, select_cmp_ogt, Ideal.ofBits_zero_f32]

/-- A one-bit word widened to 32 bits and cast to a float is 1 for the set bit, 0 for the clear one. -/
theorem sitofp_extui_bit (b : BitVec 1) :
    (FloatOps.sitofp (F := Ideal) .f32 (b.setWidth 32) : EReal) = if b = 1#1 then 1 else 0 := by
  show (((b.setWidth 32).toInt : ℝ) : EReal) = _
  by_cases h : b = 1#1
  · subst h; simp
  · have h0 := eq_zero_of_ne_one h; subst h0; simp

theorem pay4_apply (v87 : Vec Ideal S256x1 .f32) (v106 : Vec Ideal S1x1 .f32) :
    k0_pay4 (F := Ideal) v87 v106 (ix2 0 0) = v106 (ix2 0 0) + blkCnt (fun r => v87 (ix2 r 0)) := by
  unfold k0_pay4
  rw [shapeCast_self]
  show v106 (ix2 0 0) + shapeCast S1x1 _ shapeCasts_S1_S1x1 (ix2 0 0) = _
  congr 1
  refine (shapeCast_a_1a_apply _ _ 0 0).trans ?_
  refine (Ideal.multiReduction_add_single _ _ reduces_S256x1_S1 _ _ _).trans ?_
  unfold blkCnt
  change ∑ k : Fin 256, _ = ∑ k : Fin 256, _
  refine Finset.sum_congr rfl fun k _ => ?_
  show FloatOps.sitofp (F := Ideal) .f32 ((Ideal.cmp .ogt (v87 (reduces_S256x1_S1.lift (ix1 0) k)) (Ideal.ofBits .f32 0x00000000#32)).setWidth 32) = _
  rw [lift_rows, sitofp_extui_bit, Ideal.ofBits_zero_f32]
  unfold Ideal.cmp
  by_cases h : (0 : EReal) < v87 (ix2 k 0) <;> simp [h]

/-- The index a reduction over the lanes puts back: row `r`, lane `q`. -/
theorem lift_lanes (r : Fin 256) (q : Fin 2048) :
    (reduces_S256x2048_S256.lift (ix1 r) q : S256x2048.Idx) = ix2 r q := by
  funext a
  match a with
  | ⟨0, _⟩ => rfl
  | ⟨1, _⟩ => rfl

/-- The cast of a column vector `[256] → [256, 1]` reads row `r`. -/
theorem shapeCast_rows {α : Type} (x : S256.Idx → α) (r : Fin 256) :
    shapeCast S256x1 x shapeCasts_S256_S256x1 (ix2 r 0) = x (ix1 r) :=
  shapeCast_apply x _ _ _ (by
    rw [Shape.rowMajor_val_one, Shape.rowMajor_val_two]
    show r.val = r.val * 1 + 0
    omega)

/-- A column `[256, 1]` broadcast over the lanes reads its row. -/
theorem broadcast_col {α : Type} (v : S256x1.Idx → α) (r : Fin 256) (q : Fin 2048) :
    broadcastTo S256x2048 v broadcasts_S256x1_S256x2048 (ix2 r q) = v (ix2 r 0) :=
  broadcastTo_apply v _ (ix2 r q) (ix2 r 0) fun a => match a with
    | ⟨0, _⟩ => rfl
    | ⟨1, _⟩ => rfl

/-- A row `[1, 2048]` broadcast over the rows reads its lane. -/
theorem broadcast_row {α : Type} (v : S1x2048.Idx → α) (r : Fin 256) (q : Fin 2048) :
    broadcastTo S256x2048 v broadcasts_S1x2048_S256x2048 (ix2 r q) = v (ix2 0 q) :=
  broadcastTo_1b_ab_apply v _ r q

theorem cmpi_eq_iff (a b : BitVec 32) : IntOp.cmpi .eq a b = 1#1 ↔ a = b := by
  show BitVec.ofBool (a == b) = 1#1 ↔ a = b
  by_cases h : a = b
  · subst h; simp
  · have hb : (a == b) = false := by rw [beq_eq_false_iff_ne]; exact h
    rw [hb]; simp [h]

/-- The label comparison at row `r`, lane `q`. -/
theorem pay18_apply (v50 : Vec Ideal S256x1 .i32) (v52 : Vec Ideal S1x2048 .i32) (r : Fin 256) (q : Fin 2048) :
    k0_pay18 (F := Ideal) v50 v52 (ix2 r q) = IntOp.cmpi .eq (v50 (ix2 r 0)) (v52 (ix2 0 q)) := by
  unfold k0_pay18
  rw [shapeCast_self, shapeCast_self]
  show IntOp.cmpi .eq (broadcastTo S256x2048 v50 _ (ix2 r q)) (broadcastTo S256x2048 v52 _ (ix2 r q)) = _
  rw [broadcast_col, broadcast_row]

/-- A finite sum of 0/1 flags is positive exactly when some flag is up. -/
theorem sum_flags_pos {ι : Type} [Fintype ι] (p : ι → Prop) [DecidablePred p] :
    (0 : EReal) < ∑ q, (if p q then (1 : EReal) else 0) ↔ ∃ q, p q := by
  constructor
  · intro h
    by_contra hne
    have : ∑ q, (if p q then (1 : EReal) else 0) = 0 :=
      Finset.sum_eq_zero fun q _ => if_neg fun hq => hne ⟨q, hq⟩
    rw [this] at h
    exact lt_irrefl _ h
  · rintro ⟨q, hq⟩
    have h1 : (if p q then (1 : EReal) else 0) ≤ ∑ q, (if p q then (1 : EReal) else 0) :=
      Finset.single_le_sum (f := fun q => if p q then (1 : EReal) else 0)
        (fun i _ => by split <;> simp) (Finset.mem_univ q)
    rw [if_pos hq] at h1
    exact lt_of_lt_of_le zero_lt_one h1

theorem cmp_ogt_iff (x y : EReal) : Ideal.cmp .ogt x y = 1#1 ↔ y < x := by
  unfold Ideal.cmp
  by_cases h : y < x <;> simp [h]

/-- The number of lanes of a row whose label agrees with the row's, as the kernel adds it up. -/
theorem lane_count (v50 : Vec Ideal S256x1 .i32) (v52 : Vec Ideal S1x2048 .i32) (r : Fin 256) :
    multiReduction (F := Ideal) .add [1] S256 (sitofp (F := Ideal) .f32 (extui 32 (k0_pay18 (F := Ideal) v50 v52) natLt_1_32))
        0x00000000#32 reduces_S256x2048_S256 (.inl rfl) rfl (ix1 r)
      = ∑ q : Fin 2048, if v50 (ix2 r 0) = v52 (ix2 0 q) then (1 : EReal) else 0 := by
  refine (Ideal.multiReduction_add_single _ _ reduces_S256x2048_S256 _ _ _).trans ?_
  change ∑ q : Fin 2048, _ = _
  refine Finset.sum_congr rfl fun q _ => ?_
  show FloatOps.sitofp (F := Ideal) .f32 ((k0_pay18 (F := Ideal) v50 v52 (reduces_S256x2048_S256.lift (ix1 r) q)).setWidth 32) = _
  rw [lift_lanes, sitofp_extui_bit, pay18_apply]
  simp only [cmpi_eq_iff]

theorem pay20_apply (v50 : Vec Ideal S256x1 .i32) (v52 : Vec Ideal S1x2048 .i32) (v74 : Vec Ideal S256x1 .f32) (r : Fin 256) :
    k0_pay1 (F := Ideal) (k0_pay20 v50 v52 v74) (ix2 r 0)
      = max (v74 (ix2 r 0)) (flag (∃ q : Fin 2048, v50 (ix2 r 0) = v52 (ix2 0 q))) := by
  unfold k0_pay1
  rw [shapeCast_self]
  unfold k0_pay20
  show max (v74 (ix2 r 0)) (FloatOps.sitofp (F := Ideal) .f32
      ((Ideal.cmp .ogt (shapeCast S256x1 _ shapeCasts_S256_S256x1 (ix2 r 0)) (Ideal.ofBits .f32 0x00000000#32)).setWidth 32)) = _
  congr 1
  rw [sitofp_extui_bit, shapeCast_rows, Ideal.ofBits_zero_f32, lane_count]
  unfold flag
  by_cases h : ∃ q : Fin 2048, v50 (ix2 r 0) = v52 (ix2 0 q)
  · rw [if_pos h, if_pos ((cmp_ogt_iff _ _).mpr ((sum_flags_pos _).mpr h))]
  · rw [if_neg h, if_neg fun hc => h ((sum_flags_pos _).mp ((cmp_ogt_iff _ _).mp hc))]

/-- The corner rows of the detection block pass through their re-casts unchanged. -/
theorem pay10_eq (v : Vec Ideal S1x2048 .f32) : k0_pay10 (F := Ideal) v = v := by unfold k0_pay10; rw [shapeCast_self]
theorem pay11_eq (v : Vec Ideal S1x2048 .f32) : k0_pay11 (F := Ideal) v = v := by unfold k0_pay11; rw [shapeCast_self]
theorem pay12_eq (v : Vec Ideal S1x2048 .f32) : k0_pay12 (F := Ideal) v = v := by unfold k0_pay12; rw [shapeCast_self]
theorem pay13_eq (v : Vec Ideal S1x2048 .f32) : k0_pay13 (F := Ideal) v = v := by unfold k0_pay13; rw [shapeCast_self]

theorem pay14_apply (v9 : Vec Ideal S256x1 .f32) (v14 : Vec Ideal S1x2048 .f32) (r : Fin 256) (q : Fin 2048) :
    k0_pay14 (F := Ideal) v9 v14 (ix2 r q) = max (v9 (ix2 r 0)) (v14 (ix2 0 q)) := by
  unfold k0_pay14
  rw [pay11_eq]
  show max (broadcastTo S256x2048 v9 _ (ix2 r q)) (broadcastTo S256x2048 v14 _ (ix2 r q)) = _
  rw [broadcast_col, broadcast_row]

theorem pay15_apply (v11 : Vec Ideal S256x1 .f32) (v18 : Vec Ideal S1x2048 .f32) (r : Fin 256) (q : Fin 2048) :
    k0_pay15 (F := Ideal) v11 v18 (ix2 r q) = min (v11 (ix2 r 0)) (v18 (ix2 0 q)) := by
  unfold k0_pay15
  rw [pay13_eq]
  show min (broadcastTo S256x2048 v11 _ (ix2 r q)) (broadcastTo S256x2048 v18 _ (ix2 r q)) = _
  rw [broadcast_col, broadcast_row]

theorem pay16_apply (v8 v10 : Vec Ideal S256x1 .f32) (v12 v16 : Vec Ideal S1x2048 .f32) (r : Fin 256) (q : Fin 2048) :
    k0_pay16 (F := Ideal) v8 v10 v12 v16 (ix2 r q)
      = min (v10 (ix2 r 0)) (v16 (ix2 0 q)) - max (v8 (ix2 r 0)) (v12 (ix2 0 q)) := by
  unfold k0_pay16
  rw [pay10_eq, pay12_eq]
  show min (broadcastTo S256x2048 v10 _ (ix2 r q)) (broadcastTo S256x2048 v16 _ (ix2 r q))
      - max (broadcastTo S256x2048 v8 _ (ix2 r q)) (broadcastTo S256x2048 v12 _ (ix2 r q)) = _
  rw [broadcast_col, broadcast_row, broadcast_col, broadcast_row]

theorem pay17_apply (r : Fin 256) (q : Fin 2048) : k0_pay17 (F := Ideal) (ix2 r q) = 0 :=
  Ideal.ofBits_zero_f32

theorem pay19_apply (v8 v9 v10 v11 : Vec Ideal S256x1 .f32) (v12 v14 v16 v18 : Vec Ideal S1x2048 .f32)
    (v50 : Vec Ideal S256x1 .i32) (v52 : Vec Ideal S1x2048 .i32) (v69 : Vec Ideal S256x1 .f32) (r : Fin 256) :
    k0_pay19 (F := Ideal) v8 v9 v10 v11 (k0_pay10 v12) (k0_pay11 v14) (k0_pay12 v16) (k0_pay13 v18) (k0_pay14 v9 v14)
        (k0_pay15 v11 v18) (k0_pay16 v8 v10 v12 v16) k0_pay17 v50 v52 v69 (ix2 r 0)
      = max (v69 (ix2 r 0)) (supF fun q : Fin 2048 => if v50 (ix2 r 0) = v52 (ix2 0 q) then
          iou (v8 (ix2 r 0)) (v9 (ix2 r 0)) (v10 (ix2 r 0)) (v11 (ix2 r 0)) (v12 (ix2 0 q)) (v14 (ix2 0 q)) (v16 (ix2 0 q)) (v18 (ix2 0 q))
        else ⊥) := by
  unfold k0_pay19
  rw [shapeCast_self, pay10_eq, pay11_eq, pay12_eq, pay13_eq]
  show max (v69 (ix2 r 0)) (shapeCast S256x1 _ shapeCasts_S256_S256x1 (ix2 r 0)) = _
  refine congrArg (max (v69 (ix2 r 0))) ?_
  rw [shapeCast_rows]
  refine (Ideal.multiReduction_maximumf_single _ _ reduces_S256x2048_S256 _ _ _).trans ?_
  unfold supF
  change Finset.fold max (Ideal.ofBits .f32 0xFF800000#32) _ (Finset.univ : Finset (Fin 2048)) = _
  rw [ofBits_neg_inf]
  refine Finset.fold_congr fun q _ => ?_
  show (select _ _ _ : S256x2048.Idx → EReal) (reduces_S256x2048_S256.lift (ix1 r) q) = _
  rw [lift_lanes]
  simp only [select_apply, divf_apply, mulf_apply, maximumf_apply, subf_apply, addf_apply, broadcast_apply,
    broadcast_col, broadcast_row, pay14_apply, pay15_apply, pay16_apply, pay17_apply, pay18_apply]
  simp only [Ideal.ofBits_def, Ideal.ofBits_zero_f32, neg_big_eq]
  unfold Scalar.select iou
  exact if_congr (cmpi_eq_iff _ _) rfl rfl

end Cert.KernelIdeal.Pay

end
-- ==== Proof.PieceReads.lean ====
/-
  What one grid point's body leaves in the carried scratch buffers (running maximum, running flag, the two
  accumulators) and in the output block, read at an index at the ideal instance, in each of the body's five
  control cases: A the first point, B a middle detection tile, C the last detection tile of an object tile,
  D the first detection tile of a later object tile, E the very last point.
-/
import proofs.«150649_j31619549233713_1_alg».proof.Proof.Gen.KernelIdeal.Frame
import proofs.«150649_j31619549233713_1_alg».proof.Proof.Tiles
import proofs.«150649_j31619549233713_1_alg».proof.Proof.PayApply
import Idealize.ShloMosaic.Lib.Pipeline.Value

set_option maxRecDepth 16384

noncomputable section

namespace Cert.KernelIdeal.Gen

open Idealize.ShloMosaic Idealize.ShloMosaic.ValueIdx Cert.Spec

/-! ## The blocks' columns and rows as the body loads them -/

section Loads

variable {F : FTy → Type} [FloatOps F] [Named F]

theorem hz : (![0, 0] : Fin 2 → Nat) = fun _ => 0 := funext fun a => by fin_cases a <;> rfl

/-- Corner column `k` of the object block: a [256, 1] load at offsets (0, k). -/
abbrev ocol0 (x0 : Vec F S256x4 .f32) : Vec F S256x1 .f32 := View.ld (Val := Elt F) x0 (Rect.unit ![0, 0] ![256, 1] inb_S256x4_S256x1_0_0)
abbrev ocol1 (x0 : Vec F S256x4 .f32) : Vec F S256x1 .f32 := View.ld (Val := Elt F) x0 (Rect.unit ![0, 1] ![256, 1] inb_S256x4_S256x1_0_1)
abbrev ocol2 (x0 : Vec F S256x4 .f32) : Vec F S256x1 .f32 := View.ld (Val := Elt F) x0 (Rect.unit ![0, 2] ![256, 1] inb_S256x4_S256x1_0_2)
abbrev ocol3 (x0 : Vec F S256x4 .f32) : Vec F S256x1 .f32 := View.ld (Val := Elt F) x0 (Rect.unit ![0, 3] ![256, 1] inb_S256x4_S256x1_0_3)

/-- Corner row `k` of the detection block: a [1, 2048] load at offsets (k, 0). -/
abbrev drow0 (x2 : Vec F S4x2048 .f32) : Vec F S1x2048 .f32 := View.ld (Val := Elt F) x2 (Rect.unit ![0, 0] ![1, 2048] inb_S4x2048_S1x2048_0_0)
abbrev drow1 (x2 : Vec F S4x2048 .f32) : Vec F S1x2048 .f32 := View.ld (Val := Elt F) x2 (Rect.unit ![1, 0] ![1, 2048] inb_S4x2048_S1x2048_1_0)
abbrev drow2 (x2 : Vec F S4x2048 .f32) : Vec F S1x2048 .f32 := View.ld (Val := Elt F) x2 (Rect.unit ![2, 0] ![1, 2048] inb_S4x2048_S1x2048_2_0)
abbrev drow3 (x2 : Vec F S4x2048 .f32) : Vec F S1x2048 .f32 := View.ld (Val := Elt F) x2 (Rect.unit ![3, 0] ![1, 2048] inb_S4x2048_S1x2048_3_0)

/-- The running maximum after the point: the old one against the rows' best overlaps inside the detection block. -/
abbrev newBest (x0 : Vec F S256x4 .f32) (x1 : Vec F S256x1 .i32) (x2 : Vec F S4x2048 .f32) (x3 : Vec F S1x2048 .i32)
    (old : Vec F S256x1 .f32) : Vec F S256x1 .f32 :=
  k0_pay19 (ocol0 x0) (ocol1 x0) (ocol2 x0) (ocol3 x0) (k0_pay10 (drow0 x2)) (k0_pay11 (drow1 x2)) (k0_pay12 (drow2 x2))
    (k0_pay13 (drow3 x2)) (k0_pay14 (ocol1 x0) (drow1 x2)) (k0_pay15 (ocol3 x0) (drow3 x2))
    (k0_pay16 (ocol0 x0) (ocol2 x0) (drow0 x2) (drow2 x2)) k0_pay17 x1 x3 old

/-- The running flag after the point: the old one against "some detection of the block has the row's label". -/
abbrev newHas (x1 : Vec F S256x1 .i32) (x3 : Vec F S1x2048 .i32) (old : Vec F S256x1 .f32) : Vec F S256x1 .f32 :=
  k0_pay1 (k0_pay20 x1 x3 old)

end Loads

/-! ## What each case's stores leave, as payloads over the blocks (at any instance)

Each buffer's pieces are read back through their cover: one covering store leaves its payload; where a reset is
followed by an update, the update (the later store) is what is left, and the value it loaded after the reset is the
reset's payload; an accumulator's update loads the maximum and flag the same point has just stored. -/

section Pieces
variable {F : FTy → Type} [FloatOps F] [Named F]

/-! Case B — a middle detection tile: the running maximum and flag are updated. -/

theorem piece_B_2 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_B_2 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newBest x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_B_3 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_B_3 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newHas x1 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

/-! Case C — the last detection tile of an object tile: the update, then the tile's share added to the two accumulators (which read the UPDATED maximum and flag back). -/

theorem piece_C_0 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_C_0 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = k0_pay3 (newHas x1 x3 xs3) (newBest x0 x1 x2 x3 xs2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz,
    View.readCov_unit_zero (S := S256x1) _ hz, View.readCov_unit_zero (S := S1x1) _ hz]

theorem piece_C_1 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_C_1 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = k0_pay4 (newHas x1 x3 xs3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz,
    View.readCov_unit_zero (S := S256x1) _ hz, View.readCov_unit_zero (S := S1x1) _ hz]

theorem piece_C_2 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_C_2 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newBest x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_C_3 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_C_3 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newHas x1 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

/-! Case E — the very last point: as the case before, then the quotient of the two updated accumulators into the output block. -/

theorem piece_E_0 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_E_0 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = k0_pay3 (newHas x1 x3 xs3) (newBest x0 x1 x2 x3 xs2) xs0 := by
  unfold sout0_E_0
  rw [View.read_writes_eq_canon _ _ _ (scover0_E_0 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_E
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz,
    View.readCov_unit_zero (S := S256x1) _ hz, View.readCov_unit_zero (S := S1x1) _ hz]

theorem piece_E_1 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_E_1 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = k0_pay4 (newHas x1 x3 xs3) xs1 := by
  unfold sout0_E_1
  rw [View.read_writes_eq_canon _ _ _ (scover0_E_1 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_E
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz,
    View.readCov_unit_zero (S := S256x1) _ hz, View.readCov_unit_zero (S := S1x1) _ hz]

theorem piece_E_2 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_E_2 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newBest x0 x1 x2 x3 xs2 := by
  unfold sout0_E_2
  rw [View.read_writes_eq_canon _ _ _ (scover0_E_2 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_E
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_E_3 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    sout0_E_3 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = newHas x1 x3 xs3 := by
  unfold sout0_E_3
  rw [View.read_writes_eq_canon _ _ _ (scover0_E_3 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_E
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_E_4 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec F S256x4 .f32) (x1 : Vec F S256x1 .i32) (x2 : Vec F S4x2048 .f32) (x3 : Vec F S1x2048 .i32) (xs0 : Vec F S1x1 .f32) (xs1 : Vec F S1x1 .f32) (xs2 : Vec F S256x1 .f32) (xs3 : Vec F S256x1 .f32) :
    out0_E_4 (F := F) c i arg2 harg2 arg3 harg3 arg4 harg4 arg5 harg5 arg6 harg6 arg7 harg7 arg8 harg8 arg9 harg9 arg10 harg10 hc0 hc1 hc2 hc3 x0 x1 x2 x3 xs0 xs1 xs2 xs3 = k0_pay5 (k0_pay3 (newHas x1 x3 xs3) (newBest x0 x1 x2 x3 xs2) xs0) (k0_pay4 (newHas x1 x3 xs3) xs1) := by
  unfold out0_E_4
  rw [View.read_writes_eq_canon _ _ _ (cover0_E_4 c i arg2 harg2 arg3 harg3 arg4 harg4 arg5 harg5 arg6 harg6 arg7 harg7 arg8 harg8 arg9 harg9 arg10 harg10 hc0 hc1 hc2 hc3 x0 x1 x2 x3 xs0 xs1 xs2 xs3)]
  unfold kernelRun0_E
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz,
    View.readCov_unit_zero (S := S256x1) _ hz, View.readCov_unit_zero (S := S1x1) _ hz]

/-! Case A — the first point: the four buffers are reset, then the maximum and flag updated from the reset values. -/

theorem piece_A_0 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) :
    sout0_A_0 (F := F) c i arg2 harg2 arg3 harg3 arg4 harg4 arg5 harg5 arg6 harg6 arg7 harg7 arg8 harg8 arg9 harg9 arg10 harg10 hc0 hc1 hc2 hc3 x0 x1 x2 x3 = k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_unit_zero hz]

theorem piece_A_1 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) :
    sout0_A_1 (F := F) c i arg2 harg2 arg3 harg3 arg4 harg4 arg5 harg5 arg6 harg6 arg7 harg7 arg8 harg8 arg9 harg9 arg10 harg10 hc0 hc1 hc2 hc3 x0 x1 x2 x3 = k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_unit_zero hz]

theorem piece_A_2 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) :
    sout0_A_2 (F := F) c i arg2 harg2 arg3 harg3 arg4 harg4 arg5 harg5 arg6 harg6 arg7 harg7 arg8 harg8 arg9 harg9 arg10 harg10 hc0 hc1 hc2 hc3 x0 x1 x2 x3 = newBest x0 x1 x2 x3 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_A_3 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) :
    sout0_A_3 (F := F) c i arg2 harg2 arg3 harg3 arg4 harg4 arg5 harg5 arg6 harg6 arg7 harg7 arg8 harg8 arg9 harg9 arg10 harg10 hc0 hc1 hc2 hc3 x0 x1 x2 x3 = newHas x1 x3 k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

/-! Case D — the first detection tile of a later object tile: the maximum and flag are reset, then updated from the reset values. -/

theorem piece_D_2 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) :
    sout0_D_2 (F := F) c i arg2 harg2 arg3 harg3 arg4 harg4 arg5 harg5 arg6 harg6 arg7 harg7 arg8 harg8 arg9 harg9 arg10 harg10 hc0 hc1 hc2 hc3 x0 x1 x2 x3 xs0 xs1 = newBest x0 x1 x2 x3 k0_pay8 := by
  unfold sout0_D_2
  rw [View.read_writes_eq_canon _ _ _ (scover0_D_2 c i arg2 harg2 arg3 harg3 arg4 harg4 arg5 harg5 arg6 harg6 arg7 harg7 arg8 harg8 arg9 harg9 arg10 harg10 hc0 hc1 hc2 hc3 x0 x1 x2 x3 xs0 xs1)]
  unfold kernelRun0_D
  dsimp only
  sl_unfold_words
  rw [View.canon_cons_unit_zero (S := S256x1) hz, View.readCov_unit_zero (S := S256x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

theorem piece_D_3 (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec F S256x4 .f32) (x1 : Vec F S256x1 .i32) (x2 : Vec F S4x2048 .f32) (x3 : Vec F S1x2048 .i32) (xs0 : Vec F S1x1 .f32) (xs1 : Vec F S1x1 .f32) :
    sout0_D_3 (F := F) c i arg2 harg2 arg3 harg3 arg4 harg4 arg5 harg5 arg6 harg6 arg7 harg7 arg8 harg8 arg9 harg9 arg10 harg10 hc0 hc1 hc2 hc3 x0 x1 x2 x3 xs0 xs1 = newHas x1 x3 k0_pay9 := by
  unfold sout0_D_3
  rw [View.read_writes_eq_canon _ _ _ (scover0_D_3 c i arg2 harg2 arg3 harg3 arg4 harg4 arg5 harg5 arg6 harg6 arg7 harg7 arg8 harg8 arg9 harg9 arg10 harg10 hc0 hc1 hc2 hc3 x0 x1 x2 x3 xs0 xs1)]
  unfold kernelRun0_D
  dsimp only
  sl_unfold_words
  rw [View.canon_cons_unit_zero (S := S256x1) hz, View.readCov_unit_zero (S := S256x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S256x1) hz, View.ld_unit_zero (S := S1x2048) hz, View.ld_unit_zero (S := S1x1) hz]

end Pieces

/-! ## The loads and the point's updates read at an index, at the ideal instance -/

section Reads

theorem idx_ocol0 (r : Fin 256) : (Rect.unit (s := S256x4) ![0, 0] ![256, 1] inb_S256x4_S256x1_0_0).idx (ix2 r 0) = ix2 r 0 := by
  funext a
  apply Fin.ext
  match a with
  | ⟨0, _⟩ => show 0 + 1 * r.val = r.val; omega
  | ⟨1, _⟩ => show 0 + 1 * 0 = 0; rfl

theorem idx_ocol1 (r : Fin 256) : (Rect.unit (s := S256x4) ![0, 1] ![256, 1] inb_S256x4_S256x1_0_1).idx (ix2 r 0) = ix2 r 1 := by
  funext a
  apply Fin.ext
  match a with
  | ⟨0, _⟩ => show 0 + 1 * r.val = r.val; omega
  | ⟨1, _⟩ => show 1 + 1 * 0 = 1; rfl

theorem idx_ocol2 (r : Fin 256) : (Rect.unit (s := S256x4) ![0, 2] ![256, 1] inb_S256x4_S256x1_0_2).idx (ix2 r 0) = ix2 r 2 := by
  funext a
  apply Fin.ext
  match a with
  | ⟨0, _⟩ => show 0 + 1 * r.val = r.val; omega
  | ⟨1, _⟩ => show 2 + 1 * 0 = 2; rfl

theorem idx_ocol3 (r : Fin 256) : (Rect.unit (s := S256x4) ![0, 3] ![256, 1] inb_S256x4_S256x1_0_3).idx (ix2 r 0) = ix2 r 3 := by
  funext a
  apply Fin.ext
  match a with
  | ⟨0, _⟩ => show 0 + 1 * r.val = r.val; omega
  | ⟨1, _⟩ => show 3 + 1 * 0 = 3; rfl

theorem idx_drow0 (q : Fin 2048) : (Rect.unit (s := S4x2048) ![0, 0] ![1, 2048] inb_S4x2048_S1x2048_0_0).idx (ix2 0 q) = ix2 0 q := by
  funext a
  apply Fin.ext
  match a with
  | ⟨0, _⟩ => show 0 + 1 * 0 = 0; rfl
  | ⟨1, _⟩ => show 0 + 1 * q.val = q.val; omega

theorem idx_drow1 (q : Fin 2048) : (Rect.unit (s := S4x2048) ![1, 0] ![1, 2048] inb_S4x2048_S1x2048_1_0).idx (ix2 0 q) = ix2 1 q := by
  funext a
  apply Fin.ext
  match a with
  | ⟨0, _⟩ => show 1 + 1 * 0 = 1; rfl
  | ⟨1, _⟩ => show 0 + 1 * q.val = q.val; omega

theorem idx_drow2 (q : Fin 2048) : (Rect.unit (s := S4x2048) ![2, 0] ![1, 2048] inb_S4x2048_S1x2048_2_0).idx (ix2 0 q) = ix2 2 q := by
  funext a
  apply Fin.ext
  match a with
  | ⟨0, _⟩ => show 2 + 1 * 0 = 2; rfl
  | ⟨1, _⟩ => show 0 + 1 * q.val = q.val; omega

theorem idx_drow3 (q : Fin 2048) : (Rect.unit (s := S4x2048) ![3, 0] ![1, 2048] inb_S4x2048_S1x2048_3_0).idx (ix2 0 q) = ix2 3 q := by
  funext a
  apply Fin.ext
  match a with
  | ⟨0, _⟩ => show 3 + 1 * 0 = 3; rfl
  | ⟨1, _⟩ => show 0 + 1 * q.val = q.val; omega

/-- The updated running maximum of row `r`: the old one against the row's best overlap inside the detection block. -/
theorem newBest_apply (x0 : Vec Ideal S256x4 .f32) (x1 : Vec Ideal S256x1 .i32) (x2 : Vec Ideal S4x2048 .f32) (x3 : Vec Ideal S1x2048 .i32)
    (old : Vec Ideal S256x1 .f32) (r : Fin 256) :
    newBest (F := Ideal) x0 x1 x2 x3 old (ix2 r 0) = max (old (ix2 r 0)) (blkBest x0 x1 x2 x3 r) := by
  refine (Pay.pay19_apply (ocol0 x0) (ocol1 x0) (ocol2 x0) (ocol3 x0) (drow0 x2) (drow1 x2) (drow2 x2) (drow3 x2) x1 x3 old r).trans ?_
  simp only [ocol0, ocol1, ocol2, ocol3, drow0, drow1, drow2, drow3, View.ld, idx_ocol0, idx_ocol1, idx_ocol2, idx_ocol3,
    idx_drow0, idx_drow1, idx_drow2, idx_drow3]
  rfl

/-- The updated running flag of row `r`: the old one against "the detection block has a detection of the row's label". -/
theorem newHas_apply (x1 : Vec Ideal S256x1 .i32) (x3 : Vec Ideal S1x2048 .i32) (old : Vec Ideal S256x1 .f32) (r : Fin 256) :
    newHas (F := Ideal) x1 x3 old (ix2 r 0) = max (old (ix2 r 0)) (flag (blkHas x1 x3 r)) :=
  Pay.pay20_apply x1 x3 old r

/-- From the reset value −∞ the updated maximum is the block's best overlap itself. -/
theorem newBest_reset_apply (x0 : Vec Ideal S256x4 .f32) (x1 : Vec Ideal S256x1 .i32) (x2 : Vec Ideal S4x2048 .f32) (x3 : Vec Ideal S1x2048 .i32)
    (r : Fin 256) : newBest (F := Ideal) x0 x1 x2 x3 (k0_pay8 (F := Ideal)) (ix2 r 0) = blkBest x0 x1 x2 x3 r := by
  refine (newBest_apply x0 x1 x2 x3 (k0_pay8 (F := Ideal)) r).trans ?_
  rw [Pay.pay8_apply r]
  exact max_bot_left _

/-- A flag is zero or one, so taking its maximum with zero changes nothing. -/
theorem max_zero_flag (p : Prop) : max (0 : EReal) (flag p) = flag p := by
  unfold flag
  by_cases h : p
  · rw [if_pos h]; exact max_eq_right zero_le_one
  · rw [if_neg h]; exact max_self _

/-- From the reset value 0 the updated flag is the block's own. -/
theorem newHas_reset_apply (x1 : Vec Ideal S256x1 .i32) (x3 : Vec Ideal S1x2048 .i32) (r : Fin 256) :
    newHas (F := Ideal) x1 x3 (k0_pay9 (F := Ideal)) (ix2 r 0) = flag (blkHas x1 x3 r) := by
  refine (newHas_apply x1 x3 (k0_pay9 (F := Ideal)) r).trans ?_
  rw [Pay.pay9_apply r]
  exact max_zero_flag _

/-- The numerator accumulator after an object tile's last point: the tile's share, over the UPDATED maxima and flags. -/
theorem tileSum_apply (x0 : Vec Ideal S256x4 .f32) (x1 : Vec Ideal S256x1 .i32) (x2 : Vec Ideal S4x2048 .f32) (x3 : Vec Ideal S1x2048 .i32)
    (xs0 : Vec Ideal S1x1 .f32) (xs2 xs3 : Vec Ideal S256x1 .f32) :
    k0_pay3 (F := Ideal) (newHas x1 x3 xs3) (newBest x0 x1 x2 x3 xs2) xs0 (ix2 0 0)
      = xs0 (ix2 0 0) + blkSum (fun r => max (xs2 (ix2 r 0)) (blkBest x0 x1 x2 x3 r)) (fun r => max (xs3 (ix2 r 0)) (flag (blkHas x1 x3 r))) :=
  (Pay.pay3_apply (newHas x1 x3 xs3) (newBest x0 x1 x2 x3 xs2) xs0).trans
    (congrArg (fun z => xs0 (ix2 0 0) + z)
      (congrArg₂ blkSum (funext fun r => newBest_apply x0 x1 x2 x3 xs2 r) (funext fun r => newHas_apply x1 x3 xs3 r)))

/-- The count accumulator after an object tile's last point: the tile's flagged rows, over the UPDATED flags. -/
theorem tileCnt_apply (x1 : Vec Ideal S256x1 .i32) (x3 : Vec Ideal S1x2048 .i32) (xs1 : Vec Ideal S1x1 .f32) (xs3 : Vec Ideal S256x1 .f32) :
    k0_pay4 (F := Ideal) (newHas x1 x3 xs3) xs1 (ix2 0 0)
      = xs1 (ix2 0 0) + blkCnt (fun r => max (xs3 (ix2 r 0)) (flag (blkHas x1 x3 r))) :=
  (Pay.pay4_apply (newHas x1 x3 xs3) xs1).trans
    (congrArg (fun z => xs1 (ix2 0 0) + z) (congrArg blkCnt (funext fun r => newHas_apply x1 x3 xs3 r)))

end Reads

/-! ## The 21 reads -/

theorem sout0_A_0_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32)  :
    sout0_A_0 (F := Ideal) c i arg2 harg2 arg3 harg3 arg4 harg4 arg5 harg5 arg6 harg6 arg7 harg7 arg8 harg8 arg9 harg9 arg10 harg10 hc0 hc1 hc2 hc3 x0 x1 x2 x3 (ix2 0 0) = 0 :=
  (congrFun (piece_A_0 (F := Ideal) c i arg2 harg2 arg3 harg3 arg4 harg4 arg5 harg5 arg6 harg6 arg7 harg7 arg8 harg8 arg9 harg9 arg10 harg10 hc0 hc1 hc2 hc3 x0 x1 x2 x3) (ix2 0 0)).trans Pay.pay6_apply

theorem sout0_A_1_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32)  :
    sout0_A_1 (F := Ideal) c i arg2 harg2 arg3 harg3 arg4 harg4 arg5 harg5 arg6 harg6 arg7 harg7 arg8 harg8 arg9 harg9 arg10 harg10 hc0 hc1 hc2 hc3 x0 x1 x2 x3 (ix2 0 0) = 0 :=
  (congrFun (piece_A_1 (F := Ideal) c i arg2 harg2 arg3 harg3 arg4 harg4 arg5 harg5 arg6 harg6 arg7 harg7 arg8 harg8 arg9 harg9 arg10 harg10 hc0 hc1 hc2 hc3 x0 x1 x2 x3) (ix2 0 0)).trans Pay.pay7_apply

theorem sout0_A_2_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (r : Fin 256) :
    sout0_A_2 (F := Ideal) c i arg2 harg2 arg3 harg3 arg4 harg4 arg5 harg5 arg6 harg6 arg7 harg7 arg8 harg8 arg9 harg9 arg10 harg10 hc0 hc1 hc2 hc3 x0 x1 x2 x3 (ix2 r 0) = blkBest x0 x1 x2 x3 r :=
  (congrFun (piece_A_2 (F := Ideal) c i arg2 harg2 arg3 harg3 arg4 harg4 arg5 harg5 arg6 harg6 arg7 harg7 arg8 harg8 arg9 harg9 arg10 harg10 hc0 hc1 hc2 hc3 x0 x1 x2 x3) (ix2 r 0)).trans (newBest_reset_apply x0 x1 x2 x3 r)

theorem sout0_A_3_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (r : Fin 256) :
    sout0_A_3 (F := Ideal) c i arg2 harg2 arg3 harg3 arg4 harg4 arg5 harg5 arg6 harg6 arg7 harg7 arg8 harg8 arg9 harg9 arg10 harg10 hc0 hc1 hc2 hc3 x0 x1 x2 x3 (ix2 r 0) = flag (blkHas x1 x3 r) :=
  (congrFun (piece_A_3 (F := Ideal) c i arg2 harg2 arg3 harg3 arg4 harg4 arg5 harg5 arg6 harg6 arg7 harg7 arg8 harg8 arg9 harg9 arg10 harg10 hc0 hc1 hc2 hc3 x0 x1 x2 x3) (ix2 r 0)).trans (newHas_reset_apply x1 x3 r)

theorem sout0_B_0_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_B_0 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3  = xs0 := by
  rfl

theorem sout0_B_1_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_B_1 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3  = xs1 := by
  rfl

theorem sout0_B_2_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_B_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs2 (ix2 r 0)) (blkBest x0 x1 x2 x3 r) :=
  (congrFun (piece_B_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newBest_apply x0 x1 x2 x3 xs2 r)

theorem sout0_B_3_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_B_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs3 (ix2 r 0)) (flag (blkHas x1 x3 r)) :=
  (congrFun (piece_B_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newHas_apply x1 x3 xs3 r)

theorem sout0_C_0_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_C_0 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 0 0) = xs0 (ix2 0 0) + blkSum (fun r => max (xs2 (ix2 r 0)) (blkBest x0 x1 x2 x3 r)) (fun r => max (xs3 (ix2 r 0)) (flag (blkHas x1 x3 r))) :=
  (congrFun (piece_C_0 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 0 0)).trans (tileSum_apply x0 x1 x2 x3 xs0 xs2 xs3)

theorem sout0_C_1_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_C_1 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 0 0) = xs1 (ix2 0 0) + blkCnt (fun r => max (xs3 (ix2 r 0)) (flag (blkHas x1 x3 r))) :=
  (congrFun (piece_C_1 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 0 0)).trans (tileCnt_apply x1 x3 xs1 xs3)

theorem sout0_C_2_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_C_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs2 (ix2 r 0)) (blkBest x0 x1 x2 x3 r) :=
  (congrFun (piece_C_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newBest_apply x0 x1 x2 x3 xs2 r)

theorem sout0_C_3_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_C_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs3 (ix2 r 0)) (flag (blkHas x1 x3 r)) :=
  (congrFun (piece_C_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newHas_apply x1 x3 xs3 r)

theorem sout0_D_0_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32)  :
    sout0_D_0 (F := Ideal) c i arg2 harg2 arg3 harg3 arg4 harg4 arg5 harg5 arg6 harg6 arg7 harg7 arg8 harg8 arg9 harg9 arg10 harg10 hc0 hc1 hc2 hc3 x0 x1 x2 x3 xs0 xs1  = xs0 := by
  rfl

theorem sout0_D_1_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32)  :
    sout0_D_1 (F := Ideal) c i arg2 harg2 arg3 harg3 arg4 harg4 arg5 harg5 arg6 harg6 arg7 harg7 arg8 harg8 arg9 harg9 arg10 harg10 hc0 hc1 hc2 hc3 x0 x1 x2 x3 xs0 xs1  = xs1 := by
  rfl

theorem sout0_D_2_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (r : Fin 256) :
    sout0_D_2 (F := Ideal) c i arg2 harg2 arg3 harg3 arg4 harg4 arg5 harg5 arg6 harg6 arg7 harg7 arg8 harg8 arg9 harg9 arg10 harg10 hc0 hc1 hc2 hc3 x0 x1 x2 x3 xs0 xs1 (ix2 r 0) = blkBest x0 x1 x2 x3 r :=
  (congrFun (piece_D_2 (F := Ideal) c i arg2 harg2 arg3 harg3 arg4 harg4 arg5 harg5 arg6 harg6 arg7 harg7 arg8 harg8 arg9 harg9 arg10 harg10 hc0 hc1 hc2 hc3 x0 x1 x2 x3 xs0 xs1) (ix2 r 0)).trans (newBest_reset_apply x0 x1 x2 x3 r)

theorem sout0_D_3_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i) (hc2 : ¬cond0_2 i) (hc3 : ¬cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (r : Fin 256) :
    sout0_D_3 (F := Ideal) c i arg2 harg2 arg3 harg3 arg4 harg4 arg5 harg5 arg6 harg6 arg7 harg7 arg8 harg8 arg9 harg9 arg10 harg10 hc0 hc1 hc2 hc3 x0 x1 x2 x3 xs0 xs1 (ix2 r 0) = flag (blkHas x1 x3 r) :=
  (congrFun (piece_D_3 (F := Ideal) c i arg2 harg2 arg3 harg3 arg4 harg4 arg5 harg5 arg6 harg6 arg7 harg7 arg8 harg8 arg9 harg9 arg10 harg10 hc0 hc1 hc2 hc3 x0 x1 x2 x3 xs0 xs1) (ix2 r 0)).trans (newHas_reset_apply x1 x3 r)

theorem sout0_E_0_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_E_0 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 0 0) = xs0 (ix2 0 0) + blkSum (fun r => max (xs2 (ix2 r 0)) (blkBest x0 x1 x2 x3 r)) (fun r => max (xs3 (ix2 r 0)) (flag (blkHas x1 x3 r))) :=
  (congrFun (piece_E_0 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 0 0)).trans (tileSum_apply x0 x1 x2 x3 xs0 xs2 xs3)

theorem sout0_E_1_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    sout0_E_1 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 0 0) = xs1 (ix2 0 0) + blkCnt (fun r => max (xs3 (ix2 r 0)) (flag (blkHas x1 x3 r))) :=
  (congrFun (piece_E_1 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 0 0)).trans (tileCnt_apply x1 x3 xs1 xs3)

theorem sout0_E_2_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_E_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs2 (ix2 r 0)) (blkBest x0 x1 x2 x3 r) :=
  (congrFun (piece_E_2 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newBest_apply x0 x1 x2 x3 xs2 r)

theorem sout0_E_3_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32) (r : Fin 256) :
    sout0_E_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 r 0) = max (xs3 (ix2 r 0)) (flag (blkHas x1 x3 r)) :=
  (congrFun (piece_E_3 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 r 0)).trans (newHas_apply x1 x3 xs3 r)

theorem out0_E_4_read (c : Dev nD) (i : grid0.Coords) (arg2 : Memref sig .tc .vmem S256x4 .f32) (harg2 : arg2.IsWhole) (arg3 : Memref sig .tc .vmem S256x1 .i32) (harg3 : arg3.IsWhole) (arg4 : Memref sig .tc .vmem S4x2048 .f32) (harg4 : arg4.IsWhole) (arg5 : Memref sig .tc .vmem S1x2048 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i) (hc2 : cond0_2 i) (hc3 : cond0_3 i) (x0 : Vec Ideal S256x4 .f32) (x1 : Vec Ideal S256x1 .i32) (x2 : Vec Ideal S4x2048 .f32) (x3 : Vec Ideal S1x2048 .i32) (xs0 : Vec Ideal S1x1 .f32) (xs1 : Vec Ideal S1x1 .f32) (xs2 : Vec Ideal S256x1 .f32) (xs3 : Vec Ideal S256x1 .f32)  :
    out0_E_4 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3 (ix2 0 0) = Ideal.div (xs0 (ix2 0 0) + blkSum (fun r => max (xs2 (ix2 r 0)) (blkBest x0 x1 x2 x3 r)) (fun r => max (xs3 (ix2 r 0)) (flag (blkHas x1 x3 r)))) (xs1 (ix2 0 0) + blkCnt (fun r => max (xs3 (ix2 r 0)) (flag (blkHas x1 x3 r)))) :=
  (congrFun (piece_E_4 (F := Ideal) c i arg2 harg2 arg3 harg3 arg4 harg4 arg5 harg5 arg6 harg6 arg7 harg7 arg8 harg8 arg9 harg9 arg10 harg10 hc0 hc1 hc2 hc3 x0 x1 x2 x3 xs0 xs1 xs2 xs3) (ix2 0 0)).trans
    ((Pay.pay5_apply _ _).trans (congrArg₂ Ideal.div (tileSum_apply x0 x1 x2 x3 xs0 xs2 xs3) (tileCnt_apply x1 x3 xs1 xs3)))

end Cert.KernelIdeal.Gen

end
-- ==== Proof.Blocks.lean ====
/-
  The arrays the kernel region is launched on, over plain index types, and what each grid point's input blocks
  are of them: at point `t` (object tile `t / 5`, detection tile `t % 5`) row `r` of the object blocks is object
  `256 (t / 5) + r` and lane `q` of the detection blocks is detection `2048 (t % 5) + q`.  Hence a point's own
  best overlap and match flag of a row are the tile quantities of Tiles.lean.
-/
import proofs.«150649_j31619549233713_1_alg».proof.Proof.Gen.KernelIdeal.Frame
import proofs.«150649_j31619549233713_1_alg».proof.Proof.Tiles

set_option maxRecDepth 16384

noncomputable section

namespace Cert.KernelIdeal.KV

open Idealize.ShloMosaic Idealize.ShloMosaic.ValueIdx Idealize.SL.Sem Cert.KernelIdeal Cert.KernelIdeal.Gen Cert.Spec

variable (m : (ℓ : Loc nD τ sig) → Buf (Elt Ideal) ℓ)

/-- The object boxes as the region finds them. -/
def bxA (c : Dev nD) : Fin 2048 → Fin 4 → EReal := fun o k => (V m c main_arg3 : S2048x4.Idx → EReal) (ix2 o k)
/-- The object labels (a column) as the region finds them. -/
def lbA (c : Dev nD) : Fin 2048 → BitVec 32 := fun o => (V m c main_v0 : S2048x1.Idx → BitVec 32) (ix2 o 0)
/-- The padded, transposed detection boxes as the region finds them: coordinate `k` of detection `d`. -/
def dxA (c : Dev nD) : Fin 10240 → Fin 4 → EReal := fun d k => (V m c main_v3 : S4x10240.Idx → EReal) (ix2 k d)
/-- The padded detection labels (a row) as the region finds them. -/
def dlA (c : Dev nD) : Fin 10240 → BitVec 32 := fun d => (V m c main_v4 : S1x10240.Idx → BitVec 32) (ix2 0 d)

/-- The four input blocks of point `t`, at their literal types. -/
abbrev xb0 (c : Dev nD) (t : Fin cfg0.N) : Vec Ideal S256x4 .f32 := iblk m c 0 t
abbrev xb1 (c : Dev nD) (t : Fin cfg0.N) : Vec Ideal S256x1 .i32 := iblk m c 1 t
abbrev xb2 (c : Dev nD) (t : Fin cfg0.N) : Vec Ideal S4x2048 .f32 := iblk m c 2 t
abbrev xb3 (c : Dev nD) (t : Fin cfg0.N) : Vec Ideal S1x2048 .i32 := iblk m c 3 t

theorem N40 : cfg0.N = 40 := N_0

/-- The object tile of point `t`. -/
def oT (t : Fin cfg0.N) : Fin 8 := ⟨t.val / 5, by have h : t.val < 40 := lt_of_lt_of_eq t.isLt N40; omega⟩
/-- The detection tile of point `t`. -/
def jT (t : Fin cfg0.N) : Fin 5 := ⟨t.val % 5, Nat.mod_lt _ (by decide)⟩

/-- The block indices of the four input windows at every point: the object windows move with `t / 5`, the
    detection windows with `t % 5`. -/
theorem idx0 : ∀ t : Fin cfg0.N, win0_0.index t (0 : Fin 2) = t.val / 5 ∧ win0_0.index t (1 : Fin 2) = 0 :=
  (by decide +kernel : ∀ t : Fin grid0.N, _)
theorem idx1 : ∀ t : Fin cfg0.N, win0_1.index t (0 : Fin 2) = t.val / 5 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 5 :=
  (by decide +kernel : ∀ t : Fin grid0.N, _)
theorem idx3 : ∀ t : Fin cfg0.N, win0_3.index t (0 : Fin 2) = 0 ∧ win0_3.index t (1 : Fin 2) = t.val % 5 :=
  (by decide +kernel : ∀ t : Fin grid0.N, _)

theorem blk0 (c : Dev nD) (t : Fin cfg0.N) (r : Fin 256) (k : Fin 4) :
    xb0 m c t (ix2 r k) = bxA m c (oIdx (oT t) r) k := by
  show (V m c main_arg3 : S2048x4.Idx → EReal) (((cfg0.win 0).blk t).view.emb (ix2 r k)) = _
  unfold bxA
  congr 1
  funext a
  apply Fin.ext
  match a with
  | ⟨0, _⟩ =>
    show win0_0.index t 0 * 256 + 1 * r.val = 256 * (t.val / 5) + r.val
    rw [(idx0 t).1]; omega
  | ⟨1, _⟩ =>
    show win0_0.index t 1 * 4 + 1 * k.val = k.val
    rw [(idx0 t).2]; omega

theorem blk1 (c : Dev nD) (t : Fin cfg0.N) (r : Fin 256) :
    xb1 m c t (ix2 r 0) = lbA m c (oIdx (oT t) r) := by
  show (V m c main_v0 : S2048x1.Idx → BitVec 32) (((cfg0.win 1).blk t).view.emb (ix2 r 0)) = _
  unfold lbA
  congr 1
  funext a
  apply Fin.ext
  match a with
  | ⟨0, _⟩ =>
    show win0_1.index t 0 * 256 + 1 * r.val = 256 * (t.val / 5) + r.val
    rw [(idx1 t).1]; omega
  | ⟨1, _⟩ =>
    show win0_1.index t 1 * 1 + 1 * 0 = 0
    rw [(idx1 t).2]

theorem blk2 (c : Dev nD) (t : Fin cfg0.N) (k : Fin 4) (q : Fin 2048) :
    xb2 m c t (ix2 k q) = dxA m c (dIdx (jT t) q) k := by
  show (V m c main_v3 : S4x10240.Idx → EReal) (((cfg0.win 2).blk t).view.emb (ix2 k q)) = _
  unfold dxA
  congr 1
  funext a
  apply Fin.ext
  match a with
  | ⟨0, _⟩ =>
    show win0_2.index t 0 * 4 + 1 * k.val = k.val
    rw [(idx2 t).1]; omega
  | ⟨1, _⟩ =>
    show win0_2.index t 1 * 2048 + 1 * q.val = 2048 * (t.val % 5) + q.val
    rw [(idx2 t).2]; omega

theorem blk3 (c : Dev nD) (t : Fin cfg0.N) (q : Fin 2048) :
    xb3 m c t (ix2 0 q) = dlA m c (dIdx (jT t) q) := by
  show (V m c main_v4 : S1x10240.Idx → BitVec 32) (((cfg0.win 3).blk t).view.emb (ix2 0 q)) = _
  unfold dlA
  congr 1
  funext a
  apply Fin.ext
  match a with
  | ⟨0, _⟩ =>
    show win0_3.index t 0 * 1 + 1 * 0 = 0
    rw [(idx3 t).1]
  | ⟨1, _⟩ =>
    show win0_3.index t 1 * 2048 + 1 * q.val = 2048 * (t.val % 5) + q.val
    rw [(idx3 t).2]; omega

/-- A row's best overlap inside point `t`'s detection block is the object's best overlap inside that tile. -/
theorem blkBest_eq (c : Dev nD) (t : Fin cfg0.N) (r : Fin 256) :
    blkBest (xb0 m c t) (xb1 m c t) (xb2 m c t) (xb3 m c t) r
      = tileBest (bxA m c) (lbA m c) (dxA m c) (dlA m c) (oIdx (oT t) r) (jT t) := by
  unfold blkBest tileBest
  congr 1
  funext q
  unfold blkMasked masked
  rw [blk1, blk3, blk0, blk0, blk0, blk0, blk2, blk2, blk2, blk2]

/-- A row is matched inside point `t`'s detection block iff the object is matched inside that tile. -/
theorem blkHas_eq (c : Dev nD) (t : Fin cfg0.N) (r : Fin 256) :
    blkHas (xb1 m c t) (xb3 m c t) r ↔ tileHas (lbA m c) (dlA m c) (oIdx (oT t) r) (jT t) := by
  unfold blkHas tileHas
  exact exists_congr fun q => by rw [blk1, blk3]

end Cert.KernelIdeal.KV

end
-- ==== Proof.Steps.lean ====
/-
  One grid point's effect on the carried buffers, case by case, over the point's input blocks and what the point
  before left: the running maximum and flag grow by the point's own tile (or restart from it at the first detection
  tile), the two accumulators are kept, or grow by the object tile's share at the last detection tile, and the very
  last point writes their quotient out.
-/
import proofs.«150649_j31619549233713_1_alg».proof.Proof.PieceReads
import proofs.«150649_j31619549233713_1_alg».proof.Proof.Blocks

set_option maxRecDepth 16384

noncomputable section

namespace Cert.KernelIdeal.KV

open Idealize.ShloMosaic Idealize.ShloMosaic.ValueIdx Idealize.SL.Sem Cert.KernelIdeal Cert.KernelIdeal.Gen Cert.Spec

variable (m : (ℓ : Loc nD τ sig) → Buf (Elt Ideal) ℓ)

/-- What the point before `t` left (output block, sum, count, running maximum, running flag). -/
abbrev prev (c : Dev nD) (t : Fin cfg0.N) :=
  outsAt0 m c (t.val - 1) (Nat.lt_of_le_of_lt (Nat.sub_le _ _) t.isLt)

/-- The first point: maximum and flag are the point's own, the accumulators are zeroed. -/
theorem stepA (c : Dev nD) (t : Fin cfg0.N) (h0 : t.val % 40 = 0) (h1 : t.val % 5 = 0) (h2 : ¬t.val % 5 = 4) (h3 : ¬t.val % 40 = 39) :
    (∀ r : Fin 256, (outsAt0 m c t.val t.isLt).2.2.2.1 (ix2 r 0) = blkBest (xb0 m c t) (xb1 m c t) (xb2 m c t) (xb3 m c t) r)
    ∧ (∀ r : Fin 256, (outsAt0 m c t.val t.isLt).2.2.2.2 (ix2 r 0) = flag (blkHas (xb1 m c t) (xb3 m c t) r))
    ∧ (outsAt0 m c t.val t.isLt).2.1 (ix2 0 0) = 0 ∧ (outsAt0 m c t.val t.isLt).2.2.1 (ix2 0 0) = 0 := by
  rw [outsAt0_A m c t h0 h1 h2 h3]
  dsimp only
  exact ⟨fun r => sout0_A_2_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) r,
    fun r => sout0_A_3_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) r,
    sout0_A_0_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t),
    sout0_A_1_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)⟩

/-- A middle detection tile: maximum and flag grow by the point's own, the accumulators are kept. -/
theorem stepB (c : Dev nD) (t : Fin cfg0.N) (h0 : ¬t.val % 40 = 0) (h1 : ¬t.val % 5 = 0) (h2 : ¬t.val % 5 = 4) (h3 : ¬t.val % 40 = 39) :
    (∀ r : Fin 256, (outsAt0 m c t.val t.isLt).2.2.2.1 (ix2 r 0) = max ((prev m c t).2.2.2.1 (ix2 r 0)) (blkBest (xb0 m c t) (xb1 m c t) (xb2 m c t) (xb3 m c t) r))
    ∧ (∀ r : Fin 256, (outsAt0 m c t.val t.isLt).2.2.2.2 (ix2 r 0) = max ((prev m c t).2.2.2.2 (ix2 r 0)) (flag (blkHas (xb1 m c t) (xb3 m c t) r)))
    ∧ (outsAt0 m c t.val t.isLt).2.1 = (prev m c t).2.1 ∧ (outsAt0 m c t.val t.isLt).2.2.1 = (prev m c t).2.2.1 := by
  rw [outsAt0_B m c t h0 h1 h2 h3]
  dsimp only
  exact ⟨fun r => sout0_B_2_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    fun r => sout0_B_3_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    rfl, rfl⟩

/-- The last detection tile of an object tile: as a middle one, and the accumulators grow by the tile's share. -/
theorem stepC (c : Dev nD) (t : Fin cfg0.N) (h0 : ¬t.val % 40 = 0) (h1 : ¬t.val % 5 = 0) (h2 : t.val % 5 = 4) (h3 : ¬t.val % 40 = 39) :
    (∀ r : Fin 256, (outsAt0 m c t.val t.isLt).2.2.2.1 (ix2 r 0) = max ((prev m c t).2.2.2.1 (ix2 r 0)) (blkBest (xb0 m c t) (xb1 m c t) (xb2 m c t) (xb3 m c t) r))
    ∧ (∀ r : Fin 256, (outsAt0 m c t.val t.isLt).2.2.2.2 (ix2 r 0) = max ((prev m c t).2.2.2.2 (ix2 r 0)) (flag (blkHas (xb1 m c t) (xb3 m c t) r)))
    ∧ (outsAt0 m c t.val t.isLt).2.1 (ix2 0 0) = (prev m c t).2.1 (ix2 0 0) + blkSum (fun r => max ((prev m c t).2.2.2.1 (ix2 r 0)) (blkBest (xb0 m c t) (xb1 m c t) (xb2 m c t) (xb3 m c t) r)) (fun r => max ((prev m c t).2.2.2.2 (ix2 r 0)) (flag (blkHas (xb1 m c t) (xb3 m c t) r)))
    ∧ (outsAt0 m c t.val t.isLt).2.2.1 (ix2 0 0) = (prev m c t).2.2.1 (ix2 0 0) + blkCnt (fun r => max ((prev m c t).2.2.2.2 (ix2 r 0)) (flag (blkHas (xb1 m c t) (xb3 m c t) r))) := by
  rw [outsAt0_C m c t h0 h1 h2 h3]
  dsimp only
  exact ⟨fun r => sout0_C_2_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    fun r => sout0_C_3_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    sout0_C_0_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_C_1_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

/-- The first detection tile of a later object tile: maximum and flag restart, the accumulators are kept. -/
theorem stepD (c : Dev nD) (t : Fin cfg0.N) (h0 : ¬t.val % 40 = 0) (h1 : t.val % 5 = 0) (h2 : ¬t.val % 5 = 4) (h3 : ¬t.val % 40 = 39) :
    (∀ r : Fin 256, (outsAt0 m c t.val t.isLt).2.2.2.1 (ix2 r 0) = blkBest (xb0 m c t) (xb1 m c t) (xb2 m c t) (xb3 m c t) r)
    ∧ (∀ r : Fin 256, (outsAt0 m c t.val t.isLt).2.2.2.2 (ix2 r 0) = flag (blkHas (xb1 m c t) (xb3 m c t) r))
    ∧ (outsAt0 m c t.val t.isLt).2.1 = (prev m c t).2.1 ∧ (outsAt0 m c t.val t.isLt).2.2.1 = (prev m c t).2.2.1 := by
  rw [outsAt0_D m c t h0 h1 h2 h3]
  dsimp only
  exact ⟨fun r => sout0_D_2_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 r,
    fun r => sout0_D_3_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 r,
    rfl, rfl⟩

/-- The very last point: as the last detection tile of any object tile, and the quotient is written out. -/
theorem stepE (c : Dev nD) (t : Fin cfg0.N) (h0 : ¬t.val % 40 = 0) (h1 : ¬t.val % 5 = 0) (h2 : t.val % 5 = 4) (h3 : t.val % 40 = 39) :
    (∀ r : Fin 256, (outsAt0 m c t.val t.isLt).2.2.2.1 (ix2 r 0) = max ((prev m c t).2.2.2.1 (ix2 r 0)) (blkBest (xb0 m c t) (xb1 m c t) (xb2 m c t) (xb3 m c t) r))
    ∧ (∀ r : Fin 256, (outsAt0 m c t.val t.isLt).2.2.2.2 (ix2 r 0) = max ((prev m c t).2.2.2.2 (ix2 r 0)) (flag (blkHas (xb1 m c t) (xb3 m c t) r)))
    ∧ (outsAt0 m c t.val t.isLt).2.1 (ix2 0 0) = (prev m c t).2.1 (ix2 0 0) + blkSum (fun r => max ((prev m c t).2.2.2.1 (ix2 r 0)) (blkBest (xb0 m c t) (xb1 m c t) (xb2 m c t) (xb3 m c t) r)) (fun r => max ((prev m c t).2.2.2.2 (ix2 r 0)) (flag (blkHas (xb1 m c t) (xb3 m c t) r)))
    ∧ (outsAt0 m c t.val t.isLt).2.2.1 (ix2 0 0) = (prev m c t).2.2.1 (ix2 0 0) + blkCnt (fun r => max ((prev m c t).2.2.2.2 (ix2 r 0)) (flag (blkHas (xb1 m c t) (xb3 m c t) r)))
    ∧ (outsAt0 m c t.val t.isLt).1 (ix2 0 0) = Ideal.div ((prev m c t).2.1 (ix2 0 0) + blkSum (fun r => max ((prev m c t).2.2.2.1 (ix2 r 0)) (blkBest (xb0 m c t) (xb1 m c t) (xb2 m c t) (xb3 m c t) r)) (fun r => max ((prev m c t).2.2.2.2 (ix2 r 0)) (flag (blkHas (xb1 m c t) (xb3 m c t) r)))) ((prev m c t).2.2.1 (ix2 0 0) + blkCnt (fun r => max ((prev m c t).2.2.2.2 (ix2 r 0)) (flag (blkHas (xb1 m c t) (xb3 m c t) r)))) := by
  rw [outsAt0_E m c t h0 h1 h2 h3]
  dsimp only
  exact ⟨fun r => sout0_E_2_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    fun r => sout0_E_3_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r,
    sout0_E_0_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout0_E_1_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    out0_E_4_read c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

end Cert.KernelIdeal.KV

end
-- ==== Proof.TilesLemmas.lean ====
/-
  Facts about the tiled quantities of Tiles.lean: how each grows by one tile, what it is after the last tile,
  and that padding the detections with boxes of a label no object carries changes nothing.
-/
import proofs.«150649_j31619549233713_1_alg».proof.Proof.Tiles
import Mathlib.Data.Finset.Fold
import Mathlib.Data.EReal.Basic
import Mathlib.Algebra.BigOperators.Fin
import Mathlib.Algebra.BigOperators.Group.Finset.Basic

noncomputable section

namespace Cert.Spec

open Idealize.ShloMosaic Idealize.ShloMosaic.ValueIdx
open Classical

theorem flag_pos (p : Prop) : 0 < flag p ↔ p := by
  unfold flag
  by_cases h : p
  · simp [h]
  · simp [h]

theorem max_flag (p q : Prop) : max (flag p) (flag q) = flag (p ∨ q) := by
  unfold flag
  by_cases hp : p <;> by_cases hq : q <;> simp [hp, hq]

theorem max_zero_flag (p : Prop) : max 0 (flag p) = flag p := by
  unfold flag
  by_cases hp : p <;> simp [hp]

/-! ### The finite supremum's universal property -/

/-- The supremum is below a bound exactly when every member is. -/
theorem supF_le_iff {ι : Type} [Fintype ι] (f : ι → EReal) (a : EReal) : supF f ≤ a ↔ ∀ i, f i ≤ a := by
  unfold supF
  rw [Finset.fold_max_le]
  simp

/-- Every member is below the supremum. -/
theorem le_supF {ι : Type} [Fintype ι] (f : ι → EReal) (i : ι) : f i ≤ supF f := by
  unfold supF
  rw [Finset.le_fold_max]
  exact Or.inr ⟨i, Finset.mem_univ i, le_rfl⟩

/-! ### Guarded sums over the eight object tiles -/

/-- A sum over the tiles below `n + 1` is the sum over the tiles below `n` plus tile `n`'s term. -/
theorem guarded_sum_succ (g : Fin 8 → EReal) (n : ℕ) (hn : n < 8) :
    (∑ i : Fin 8, if i.val < n + 1 then g i else 0)
      = (∑ i : Fin 8, if i.val < n then g i else 0) + g ⟨n, hn⟩ := by
  have hpt : ∀ i : Fin 8, (if i.val < n + 1 then g i else 0)
      = (if i.val < n then g i else 0) + (if i = ⟨n, hn⟩ then g i else 0) := by
    intro i
    by_cases h1 : i.val < n
    · have h2 : i.val < n + 1 := by omega
      have h3 : i ≠ ⟨n, hn⟩ := by
        intro h
        rw [h] at h1
        simp at h1
      simp [h1, h2, h3]
    · by_cases h3 : i = ⟨n, hn⟩
      · subst h3
        simp
      · have h2 : ¬ i.val < n + 1 := by
          intro h
          apply h3
          apply Fin.ext
          simp only
          omega
        simp [h1, h2, h3]
  rw [Finset.sum_congr rfl (fun i _ => hpt i), Finset.sum_add_distrib, Finset.sum_ite_eq']
  simp

/-- Objects are exactly the (tile, row) pairs. -/
def oEquiv : Fin 8 × Fin 256 ≃ Fin 2048 where
  toFun p := oIdx p.1 p.2
  invFun o := (⟨o.val / 256, by omega⟩, ⟨o.val % 256, Nat.mod_lt _ (by norm_num)⟩)
  left_inv := by
    rintro ⟨i, r⟩
    apply Prod.ext
    · apply Fin.ext
      simp only [oIdx]
      omega
    · apply Fin.ext
      simp only [oIdx]
      omega
  right_inv := by
    intro o
    apply Fin.ext
    simp only [oIdx]
    omega

/-- A sum over tiles of sums over rows is the sum over all objects. -/
theorem sum_tiles (c : Fin 2048 → EReal) : (∑ i : Fin 8, ∑ r : Fin 256, c (oIdx i r)) = ∑ o, c o := by
  rw [← Equiv.sum_comp oEquiv c, Fintype.sum_prod_type]
  rfl

/-- A sum of flags over a finite set is the number of members flagged. -/
theorem sum_flag_eq_card {ι : Type} (s : Finset ι) (p : ι → Prop) :
    (∑ o ∈ s, flag (p o)) = ((((s.filter p).card : ℕ) : ℝ) : EReal) := by
  induction s using Finset.induction_on with
  | empty => simp
  | insert a s ha ih =>
    rw [Finset.sum_insert ha, ih, Finset.filter_insert]
    by_cases hp : p a
    · have hna : a ∉ s.filter p := fun h => ha (Finset.mem_of_mem_filter a h)
      rw [if_pos hp, Finset.card_insert_of_notMem hna]
      unfold flag
      rw [if_pos hp, Nat.cast_succ, EReal.coe_add, EReal.coe_one, add_comm]
    · rw [if_neg hp]
      unfold flag
      rw [if_neg hp, zero_add]

section Whole
variable (bx : Fin 2048 → Fin 4 → EReal) (lb : Fin 2048 → BitVec 32)
variable (dx : Fin 10240 → Fin 4 → EReal) (dl : Fin 10240 → BitVec 32)

theorem partBest_zero (o : Fin 2048) : partBest bx lb dx dl 0 o = ⊥ := by
  unfold partBest
  apply le_antisymm
  · rw [supF_le_iff]
    intro j
    simp
  · exact bot_le

theorem partBest_succ (n : ℕ) (hn : n < 5) (o : Fin 2048) :
    partBest bx lb dx dl (n + 1) o = max (partBest bx lb dx dl n o) (tileBest bx lb dx dl o ⟨n, hn⟩) := by
  unfold partBest
  apply le_antisymm
  · rw [supF_le_iff]
    intro j
    by_cases h1 : j.val < n
    · have h2 : j.val < n + 1 := by omega
      rw [if_pos h2]
      apply le_max_of_le_left
      have := le_supF (fun j : Fin 5 => if j.val < n then tileBest bx lb dx dl o j else ⊥) j
      simpa only [if_pos h1] using this
    · by_cases h3 : j.val = n
      · have h2 : j.val < n + 1 := by omega
        have hj : j = ⟨n, hn⟩ := Fin.ext h3
        rw [if_pos h2, hj]
        exact le_max_right _ _
      · have h2 : ¬ j.val < n + 1 := by omega
        rw [if_neg h2]
        exact bot_le
  · apply max_le
    · rw [supF_le_iff]
      intro j
      by_cases h1 : j.val < n
      · have h2 : j.val < n + 1 := by omega
        rw [if_pos h1]
        have := le_supF (fun j : Fin 5 => if j.val < n + 1 then tileBest bx lb dx dl o j else ⊥) j
        simpa only [if_pos h2] using this
      · rw [if_neg h1]
        exact bot_le
    · have h2 : (⟨n, hn⟩ : Fin 5).val < n + 1 := Nat.lt_succ_self n
      have := le_supF (fun j : Fin 5 => if j.val < n + 1 then tileBest bx lb dx dl o j else ⊥) ⟨n, hn⟩
      simpa only [if_pos h2] using this

theorem partBest_five (o : Fin 2048) : partBest bx lb dx dl 5 o = best bx lb dx dl o := by
  unfold partBest best
  apply le_antisymm
  · rw [supF_le_iff]
    intro j
    rw [if_pos j.isLt]
    unfold tileBest
    rw [supF_le_iff]
    intro q
    exact le_supF (masked bx lb dx dl o) (dIdx j q)
  · rw [supF_le_iff]
    intro d
    have hq : d.val % 2048 < 2048 := Nat.mod_lt _ (by norm_num)
    have hj : d.val / 2048 < 5 := by omega
    have hd : d = dIdx ⟨d.val / 2048, hj⟩ ⟨d.val % 2048, hq⟩ := by
      apply Fin.ext
      simp only [dIdx]
      omega
    have h1 : masked bx lb dx dl o d ≤ tileBest bx lb dx dl o ⟨d.val / 2048, hj⟩ := by
      unfold tileBest
      have := le_supF (fun q : Fin 2048 => masked bx lb dx dl o (dIdx ⟨d.val / 2048, hj⟩ q)) ⟨d.val % 2048, hq⟩
      rw [← hd] at this
      exact this
    have h2 := le_supF (fun j : Fin 5 => if j.val < 5 then tileBest bx lb dx dl o j else ⊥) ⟨d.val / 2048, hj⟩
    rw [if_pos hj] at h2
    exact le_trans h1 h2

theorem partHas_zero (o : Fin 2048) : ¬ partHas lb dl 0 o := by
  rintro ⟨j, hj, _⟩
  exact Nat.not_lt_zero _ hj

theorem partHas_succ (n : ℕ) (hn : n < 5) (o : Fin 2048) :
    partHas lb dl (n + 1) o ↔ partHas lb dl n o ∨ tileHas lb dl o ⟨n, hn⟩ := by
  unfold partHas
  constructor
  · rintro ⟨j, hj, ht⟩
    by_cases h1 : j.val < n
    · exact Or.inl ⟨j, h1, ht⟩
    · have h3 : j.val = n := by omega
      have hj' : j = ⟨n, hn⟩ := Fin.ext h3
      rw [hj'] at ht
      exact Or.inr ht
  · rintro (⟨j, hj, ht⟩ | ht)
    · exact ⟨j, by omega, ht⟩
    · exact ⟨⟨n, hn⟩, Nat.lt_succ_self n, ht⟩

theorem partHas_five (o : Fin 2048) : partHas lb dl 5 o ↔ has lb dl o := by
  unfold partHas tileHas has
  constructor
  · rintro ⟨j, _, q, hq⟩
    exact ⟨dIdx j q, hq⟩
  · rintro ⟨d, hd⟩
    have hq : d.val % 2048 < 2048 := Nat.mod_lt _ (by norm_num)
    have hj : d.val / 2048 < 5 := by omega
    have hdd : d = dIdx ⟨d.val / 2048, hj⟩ ⟨d.val % 2048, hq⟩ := by
      apply Fin.ext
      simp only [dIdx]
      omega
    refine ⟨⟨d.val / 2048, hj⟩, hj, ⟨d.val % 2048, hq⟩, ?_⟩
    rw [← hdd]
    exact hd

theorem partSum_zero : partSum bx lb dx dl 0 = 0 := by
  unfold partSum
  simp

theorem partSum_succ (n : ℕ) (hn : n < 8) :
    partSum bx lb dx dl (n + 1) = partSum bx lb dx dl n + ∑ r : Fin 256, contrib bx lb dx dl (oIdx ⟨n, hn⟩ r) := by
  unfold partSum
  exact guarded_sum_succ (fun i => ∑ r : Fin 256, contrib bx lb dx dl (oIdx i r)) n hn

theorem partSum_eight : partSum bx lb dx dl 8 = ∑ o, contrib bx lb dx dl o := by
  unfold partSum
  rw [← sum_tiles (contrib bx lb dx dl)]
  apply Finset.sum_congr rfl
  intro i _
  rw [if_pos i.isLt]

theorem partCnt_zero : partCnt lb dl 0 = 0 := by
  unfold partCnt
  simp

theorem partCnt_succ (n : ℕ) (hn : n < 8) :
    partCnt lb dl (n + 1) = partCnt lb dl n + ∑ r : Fin 256, flag (has lb dl (oIdx ⟨n, hn⟩ r)) := by
  unfold partCnt
  exact guarded_sum_succ (fun i => ∑ r : Fin 256, flag (has lb dl (oIdx i r))) n hn

theorem partCnt_eight : partCnt lb dl 8 = (((cnt lb dl : ℕ) : ℝ) : EReal) := by
  unfold partCnt cnt
  rw [← sum_flag_eq_card Finset.univ (has lb dl), ← sum_tiles (fun o => flag (has lb dl o))]
  apply Finset.sum_congr rfl
  intro i _
  rw [if_pos i.isLt]

end Whole

/-- Detections appended with a label no object carries (their boxes may be anything) change neither an object's
    best overlap nor whether it is matched, hence not the loss. -/
theorem loss_pad (bx : Fin 2048 → Fin 4 → EReal) (lb : Fin 2048 → BitVec 32)
    (dx : Fin 8732 → Fin 4 → EReal) (dl : Fin 8732 → BitVec 32) (hl : ∀ o, lb o ≠ 4294967295#32) :
    loss bx lb (fun (d : Fin 10240) k => if h : d.val < 8732 then dx ⟨d.val, h⟩ k else 0)
        (fun d : Fin 10240 => if h : d.val < 8732 then dl ⟨d.val, h⟩ else 4294967295#32)
      = loss bx lb dx dl := by
  -- an object's best overlap: the appended detections are masked to −∞, the others are the old ones
  have hbest : ∀ o, best bx lb (fun (d : Fin 10240) k => if h : d.val < 8732 then dx ⟨d.val, h⟩ k else 0)
        (fun d : Fin 10240 => if h : d.val < 8732 then dl ⟨d.val, h⟩ else 4294967295#32) o
      = best bx lb dx dl o := by
    intro o
    unfold best
    apply le_antisymm
    · rw [supF_le_iff]
      intro d
      by_cases h : d.val < 8732
      · have := le_supF (masked bx lb dx dl o) ⟨d.val, h⟩
        unfold masked at this ⊢
        simpa only [dif_pos h] using this
      · unfold masked
        simp only [dif_neg h]
        rw [if_neg (hl o)]
        exact bot_le
    · rw [supF_le_iff]
      intro d
      have h : d.val < 8732 := d.isLt
      have := le_supF (masked bx lb (fun (d : Fin 10240) k => if h : d.val < 8732 then dx ⟨d.val, h⟩ k else 0)
        (fun d : Fin 10240 => if h : d.val < 8732 then dl ⟨d.val, h⟩ else 4294967295#32) o) ⟨d.val, by omega⟩
      unfold masked at this ⊢
      simpa only [dif_pos h, Fin.eta] using this
  -- whether an object is matched: an appended detection never carries its label
  have hhas : ∀ o, has lb (fun d : Fin 10240 => if h : d.val < 8732 then dl ⟨d.val, h⟩ else 4294967295#32) o
      ↔ has lb dl o := by
    intro o
    unfold has
    constructor
    · rintro ⟨d, hd⟩
      by_cases h : d.val < 8732
      · simp only [dif_pos h] at hd
        exact ⟨⟨d.val, h⟩, hd⟩
      · simp only [dif_neg h] at hd
        exact absurd hd (hl o)
    · rintro ⟨d, hd⟩
      have h : d.val < 8732 := d.isLt
      refine ⟨⟨d.val, by omega⟩, ?_⟩
      simp only [dif_pos h, Fin.eta]
      exact hd
  unfold loss
  congr 1
  · apply Finset.sum_congr rfl
    intro o _
    unfold contrib
    rw [hbest o]
    exact if_congr (hhas o) rfl rfl
  · congr 2
    unfold cnt
    congr 1
    apply Finset.filter_congr
    intro o _
    exact hhas o

end Cert.Spec

end
-- ==== Proof.Invariant.lean ====
/-
  What the carried buffers hold after every grid point, by induction over the points in grid order: after point
  `n` (object tile `n / 5`, detection tile `n % 5`) the running maximum and flag of row `r` are object
  `256 (n / 5) + r`'s best overlap and match flag over the first `n % 5 + 1` detection tiles, and the two
  accumulators hold the loss's numerator and the matched count over the object tiles completed so far.  After the
  last point the output block holds their quotient: the loss.
-/
import proofs.«150649_j31619549233713_1_alg».proof.Proof.Steps
import proofs.«150649_j31619549233713_1_alg».proof.Proof.TilesLemmas

set_option maxRecDepth 16384

noncomputable section

namespace Cert.KernelIdeal.KV

open Idealize.ShloMosaic Idealize.ShloMosaic.ValueIdx Idealize.SL.Sem Cert.KernelIdeal Cert.KernelIdeal.Gen Cert.Spec

variable (m : (ℓ : Loc nD τ sig) → Buf (Elt Ideal) ℓ) (c : Dev nD)

/-- The object tiles completed after point `n`. -/
def doneTiles (n : ℕ) : ℕ := if n % 5 = 4 then n / 5 + 1 else n / 5

/-- The state of the carried buffers after point `n`. -/
def Inv (n : ℕ) (hn : n < cfg0.N) : Prop :=
  (∀ r : Fin 256, (outsAt0 m c n hn).2.2.2.1 (ix2 r 0)
      = partBest (bxA m c) (lbA m c) (dxA m c) (dlA m c) (n % 5 + 1) (oIdx (oT ⟨n, hn⟩) r))
  ∧ (∀ r : Fin 256, (outsAt0 m c n hn).2.2.2.2 (ix2 r 0)
      = flag (partHas (lbA m c) (dlA m c) (n % 5 + 1) (oIdx (oT ⟨n, hn⟩) r)))
  ∧ (outsAt0 m c n hn).2.1 (ix2 0 0) = partSum (bxA m c) (lbA m c) (dxA m c) (dlA m c) (doneTiles n)
  ∧ (outsAt0 m c n hn).2.2.1 (ix2 0 0) = partCnt (lbA m c) (dlA m c) (doneTiles n)

/-- The share of a completed object tile in the numerator: its rows' contributions. -/
theorem blkSum_done (i : Fin 8) :
    blkSum (fun r => partBest (bxA m c) (lbA m c) (dxA m c) (dlA m c) 5 (oIdx i r)) (fun r => flag (partHas (lbA m c) (dlA m c) 5 (oIdx i r)))
      = ∑ r : Fin 256, contrib (bxA m c) (lbA m c) (dxA m c) (dlA m c) (oIdx i r) := by
  unfold blkSum contrib
  refine Finset.sum_congr rfl fun r _ => ?_
  dsimp only
  rw [partBest_five]
  by_cases h : has (lbA m c) (dlA m c) (oIdx i r)
  · rw [if_pos h, if_pos ((flag_pos _).mpr ((partHas_five _ _ _).mpr h))]
  · rw [if_neg h, if_neg (fun h' => h ((partHas_five _ _ _).mp ((flag_pos _).mp h')))]

/-- The share of a completed object tile in the count: its rows' flags. -/
theorem blkCnt_done (i : Fin 8) :
    blkCnt (fun r => flag (partHas (lbA m c) (dlA m c) 5 (oIdx i r))) = ∑ r : Fin 256, flag (has (lbA m c) (dlA m c) (oIdx i r)) := by
  unfold blkCnt
  refine Finset.sum_congr rfl fun r _ => ?_
  dsimp only
  by_cases h : has (lbA m c) (dlA m c) (oIdx i r)
  · rw [if_pos ((flag_pos _).mpr ((partHas_five _ _ _).mpr h))]; unfold flag; rw [if_pos h]
  · rw [if_neg (fun h' => h ((partHas_five _ _ _).mp ((flag_pos _).mp h')))]; unfold flag; rw [if_neg h]

/-- The completed object tiles do not change inside an object tile, and grow by one at its last detection tile. -/
theorem doneTiles_zero : doneTiles 0 = 0 := rfl
theorem doneTiles_first (n : ℕ) (h : (n + 1) % 5 = 0) : doneTiles (n + 1) = doneTiles n := by
  unfold doneTiles; split_ifs <;> omega
theorem doneTiles_mid (n : ℕ) (h : (n + 1) % 5 ≠ 0) (h4 : (n + 1) % 5 ≠ 4) : doneTiles (n + 1) = doneTiles n := by
  unfold doneTiles; split_ifs <;> omega
theorem doneTiles_last (n : ℕ) (h4 : (n + 1) % 5 = 4) : doneTiles (n + 1) = n / 5 + 1 ∧ doneTiles n = n / 5 := by
  unfold doneTiles; constructor <;> split_ifs <;> omega

/-- Inside an object tile the running maximum grows by the point's own detection tile. -/
theorem grow_best (n : ℕ) (hn : n + 1 < cfg0.N) (h1 : (n + 1) % 5 ≠ 0) (r : Fin 256) (a : EReal)
    (ha : a = partBest (bxA m c) (lbA m c) (dxA m c) (dlA m c) (n % 5 + 1) (oIdx (oT ⟨n, Nat.lt_of_succ_lt hn⟩) r)) :
    max a (blkBest (xb0 m c ⟨n + 1, hn⟩) (xb1 m c ⟨n + 1, hn⟩) (xb2 m c ⟨n + 1, hn⟩) (xb3 m c ⟨n + 1, hn⟩) r)
      = partBest (bxA m c) (lbA m c) (dxA m c) (dlA m c) ((n + 1) % 5 + 1) (oIdx (oT ⟨n + 1, hn⟩) r) := by
  subst ha
  rw [blkBest_eq]
  have hm : (n + 1) % 5 = n % 5 + 1 := by omega
  have hlt : n % 5 + 1 < 5 := by omega
  have ho : oT ⟨n + 1, hn⟩ = oT ⟨n, Nat.lt_of_succ_lt hn⟩ := Fin.ext (by show (n + 1) / 5 = n / 5; omega)
  have hj : jT ⟨n + 1, hn⟩ = ⟨n % 5 + 1, hlt⟩ := Fin.ext hm
  rw [ho, hj, hm, partBest_succ _ _ _ _ (n % 5 + 1) hlt]

/-- … and the running flag likewise. -/
theorem grow_flag (n : ℕ) (hn : n + 1 < cfg0.N) (h1 : (n + 1) % 5 ≠ 0) (r : Fin 256) (a : EReal)
    (ha : a = flag (partHas (lbA m c) (dlA m c) (n % 5 + 1) (oIdx (oT ⟨n, Nat.lt_of_succ_lt hn⟩) r))) :
    max a (flag (blkHas (xb1 m c ⟨n + 1, hn⟩) (xb3 m c ⟨n + 1, hn⟩) r))
      = flag (partHas (lbA m c) (dlA m c) ((n + 1) % 5 + 1) (oIdx (oT ⟨n + 1, hn⟩) r)) := by
  subst ha
  have hm : (n + 1) % 5 = n % 5 + 1 := by omega
  have hlt : n % 5 + 1 < 5 := by omega
  have ho : oT ⟨n + 1, hn⟩ = oT ⟨n, Nat.lt_of_succ_lt hn⟩ := Fin.ext (by show (n + 1) / 5 = n / 5; omega)
  have hj : jT ⟨n + 1, hn⟩ = ⟨n % 5 + 1, hlt⟩ := Fin.ext hm
  rw [max_flag, propext (blkHas_eq m c ⟨n + 1, hn⟩ r), ho, hj, hm, propext (partHas_succ _ _ (n % 5 + 1) hlt _)]

/-- At the first detection tile of an object tile the running maximum restarts from the point's own tile. -/
theorem start_best (n : ℕ) (hn : n < cfg0.N) (h1 : n % 5 = 0) (r : Fin 256) :
    blkBest (xb0 m c ⟨n, hn⟩) (xb1 m c ⟨n, hn⟩) (xb2 m c ⟨n, hn⟩) (xb3 m c ⟨n, hn⟩) r
      = partBest (bxA m c) (lbA m c) (dxA m c) (dlA m c) (n % 5 + 1) (oIdx (oT ⟨n, hn⟩) r) := by
  rw [blkBest_eq]
  have hj : jT ⟨n, hn⟩ = ⟨0, by decide⟩ := Fin.ext h1
  rw [hj, h1, partBest_succ _ _ _ _ 0 (by decide), partBest_zero, max_bot_left]

/-- … and the running flag likewise. -/
theorem start_flag (n : ℕ) (hn : n < cfg0.N) (h1 : n % 5 = 0) (r : Fin 256) :
    flag (blkHas (xb1 m c ⟨n, hn⟩) (xb3 m c ⟨n, hn⟩) r)
      = flag (partHas (lbA m c) (dlA m c) (n % 5 + 1) (oIdx (oT ⟨n, hn⟩) r)) := by
  have hj : jT ⟨n, hn⟩ = ⟨0, by decide⟩ := Fin.ext h1
  rw [propext (blkHas_eq m c ⟨n, hn⟩ r), hj, h1, propext (partHas_succ _ _ 0 (by decide) _)]
  congr 1
  exact propext ⟨Or.inr, fun h => h.elim (fun h0 => absurd h0 (partHas_zero _ _ _)) id⟩

/-- At the last detection tile of an object tile the two accumulators take the tile's share in. -/
theorem last_sums (n : ℕ) (hn : n + 1 < cfg0.N) (h1 : (n + 1) % 5 ≠ 0) (h4 : (n + 1) % 5 = 4)
    (ih : Inv m c n (Nat.lt_of_succ_lt hn)) (s k : EReal)
    (hs : s = (outsAt0 m c n (Nat.lt_of_succ_lt hn)).2.1 (ix2 0 0) + blkSum (fun r : Fin 256 => max ((outsAt0 m c n (Nat.lt_of_succ_lt hn)).2.2.2.1 (ix2 r 0)) (blkBest (xb0 m c ⟨n + 1, hn⟩) (xb1 m c ⟨n + 1, hn⟩) (xb2 m c ⟨n + 1, hn⟩) (xb3 m c ⟨n + 1, hn⟩) r)) (fun r : Fin 256 => max ((outsAt0 m c n (Nat.lt_of_succ_lt hn)).2.2.2.2 (ix2 r 0)) (flag (blkHas (xb1 m c ⟨n + 1, hn⟩) (xb3 m c ⟨n + 1, hn⟩) r))))
    (hk : k = (outsAt0 m c n (Nat.lt_of_succ_lt hn)).2.2.1 (ix2 0 0) + blkCnt (fun r : Fin 256 => max ((outsAt0 m c n (Nat.lt_of_succ_lt hn)).2.2.2.2 (ix2 r 0)) (flag (blkHas (xb1 m c ⟨n + 1, hn⟩) (xb3 m c ⟨n + 1, hn⟩) r)))) :
    s = partSum (bxA m c) (lbA m c) (dxA m c) (dlA m c) (doneTiles (n + 1)) ∧ k = partCnt (lbA m c) (dlA m c) (doneTiles (n + 1)) := by
  have h40 : n + 1 < 40 := lt_of_lt_of_eq hn N40
  have hlt : n / 5 < 8 := by omega
  have ho : oT ⟨n + 1, hn⟩ = ⟨n / 5, hlt⟩ := Fin.ext (by show (n + 1) / 5 = n / 5; omega)
  have hmax : (fun r : Fin 256 => max ((outsAt0 m c n (Nat.lt_of_succ_lt hn)).2.2.2.1 (ix2 r 0)) (blkBest (xb0 m c ⟨n + 1, hn⟩) (xb1 m c ⟨n + 1, hn⟩) (xb2 m c ⟨n + 1, hn⟩) (xb3 m c ⟨n + 1, hn⟩) r)) = fun r => partBest (bxA m c) (lbA m c) (dxA m c) (dlA m c) 5 (oIdx ⟨n / 5, hlt⟩ r) := by
    funext r
    rw [grow_best m c n hn h1 r _ (ih.1 r), h4, ho]
  have hany : (fun r : Fin 256 => max ((outsAt0 m c n (Nat.lt_of_succ_lt hn)).2.2.2.2 (ix2 r 0)) (flag (blkHas (xb1 m c ⟨n + 1, hn⟩) (xb3 m c ⟨n + 1, hn⟩) r))) = fun r => flag (partHas (lbA m c) (dlA m c) 5 (oIdx ⟨n / 5, hlt⟩ r)) := by
    funext r
    rw [grow_flag m c n hn h1 r _ (ih.2.1 r), h4, ho]
  constructor
  · rw [hs, hmax, hany, blkSum_done, ih.2.2.1, (doneTiles_last n h4).1, (doneTiles_last n h4).2]
    exact (partSum_succ _ _ _ _ (n / 5) hlt).symm
  · rw [hk, hany, blkCnt_done, ih.2.2.2, (doneTiles_last n h4).1, (doneTiles_last n h4).2]
    exact (partCnt_succ _ _ (n / 5) hlt).symm

/-- The invariant passes from a point to the next. -/
theorem inv_succ (n : ℕ) (hn : n + 1 < cfg0.N) (ih : Inv m c n (Nat.lt_of_succ_lt hn)) : Inv m c (n + 1) hn := by
  have h40 : n + 1 < 40 := lt_of_lt_of_eq hn N40
  have hprev : prev m c ⟨n + 1, hn⟩ = outsAt0 m c n (Nat.lt_of_succ_lt hn) := rfl
  by_cases h1 : (n + 1) % 5 = 0
  · -- the first detection tile of a later object tile
    have hD := stepD m c ⟨n + 1, hn⟩ (by show ¬(n + 1) % 40 = 0; omega) h1 (by show ¬(n + 1) % 5 = 4; omega)
      (by show ¬(n + 1) % 40 = 39; omega)
    rw [hprev] at hD
    refine ⟨fun r => (hD.1 r).trans (start_best m c (n + 1) hn h1 r),
      fun r => (hD.2.1 r).trans (start_flag m c (n + 1) hn h1 r), ?_, ?_⟩
    · rw [doneTiles_first n h1]; exact (congrFun hD.2.2.1 _).trans ih.2.2.1
    · rw [doneTiles_first n h1]; exact (congrFun hD.2.2.2 _).trans ih.2.2.2
  · by_cases h4 : (n + 1) % 5 = 4
    · by_cases h39 : (n + 1) % 40 = 39
      · -- the very last point
        have hE := stepE m c ⟨n + 1, hn⟩ (by show ¬(n + 1) % 40 = 0; omega) h1 h4 h39
        rw [hprev] at hE
        have hS := last_sums m c n hn h1 h4 ih _ _ hE.2.2.1 hE.2.2.2.1
        exact ⟨fun r => (hE.1 r).trans (grow_best m c n hn h1 r _ (ih.1 r)),
          fun r => (hE.2.1 r).trans (grow_flag m c n hn h1 r _ (ih.2.1 r)), hS.1, hS.2⟩
      · -- the last detection tile of an object tile that is not the last
        have hC := stepC m c ⟨n + 1, hn⟩ (by show ¬(n + 1) % 40 = 0; omega) h1 h4 h39
        rw [hprev] at hC
        have hS := last_sums m c n hn h1 h4 ih _ _ hC.2.2.1 hC.2.2.2
        exact ⟨fun r => (hC.1 r).trans (grow_best m c n hn h1 r _ (ih.1 r)),
          fun r => (hC.2.1 r).trans (grow_flag m c n hn h1 r _ (ih.2.1 r)), hS.1, hS.2⟩
    · -- a middle detection tile
      have hB := stepB m c ⟨n + 1, hn⟩ (by show ¬(n + 1) % 40 = 0; omega) h1 h4 (by show ¬(n + 1) % 40 = 39; omega)
      rw [hprev] at hB
      refine ⟨fun r => (hB.1 r).trans (grow_best m c n hn h1 r _ (ih.1 r)),
        fun r => (hB.2.1 r).trans (grow_flag m c n hn h1 r _ (ih.2.1 r)), ?_, ?_⟩
      · rw [doneTiles_mid n h1 h4]; exact (congrFun hB.2.2.1 _).trans ih.2.2.1
      · rw [doneTiles_mid n h1 h4]; exact (congrFun hB.2.2.2 _).trans ih.2.2.2

/-- THE INVARIANT holds after every point. -/
theorem inv : ∀ (n : ℕ) (hn : n < cfg0.N), Inv m c n hn
  | 0, hn => by
    have hA := stepA m c ⟨0, hn⟩ rfl rfl (by show ¬(0 % 5 = 4); decide) (by show ¬(0 % 40 = 39); decide)
    refine ⟨fun r => (hA.1 r).trans (start_best m c 0 hn rfl r), fun r => (hA.2.1 r).trans (start_flag m c 0 hn rfl r), ?_, ?_⟩
    · exact hA.2.2.1.trans (partSum_zero _ _ _ _).symm
    · exact hA.2.2.2.trans (partCnt_zero _ _).symm
  | n + 1, hn => inv_succ m c n hn (inv n (Nat.lt_of_succ_lt hn))

end Cert.KernelIdeal.KV

end
-- ==== Proof.HostPrefix.lean ====
/-
  What the arrays hold that the kernel region is launched on, in terms of the program's arguments, and what the
  precondition says about the labels — both at the ideal instance.

  Before the region the program reshapes the label vector (argument 4, 2048 words) into a column; pads the box
  table (argument 0, 8732 rows of 4 reals) behind with 1508 rows holding the integer zero converted to a real,
  that is 0, and transposes it to 4 rows of 10240; pads the detection labels (argument 2, 8732 words) behind
  with 1508 copies of the word of all ones (−1 as a signed word) and reshapes them into a row of 10240. So the
  column reads the labels entry for entry; the transposed table reads, at coordinate k of detection d, the
  table's entry (d, k) when d < 8732 and 0 beyond; the row reads the detection labels when d < 8732 and −1
  beyond. The precondition's last conjunct is the conjunction, over all 2048 labels of argument 4, of
  "label ≥ 0 as a signed word"; −1 is negative, so no label is −1.
-/
import proofs.«150649_j31619549233713_1_alg».proof.Proof.Gen.KernelIdeal.Frame
import proofs.«150649_j31619549233713_1_alg».proof.Defs
import proofs.«150649_j31619549233713_1_alg».proof.Proof.Gen.Pre_finite_inputs
import Idealize.ShloMosaic.Lib.ReduceAll
import Idealize.ShloMosaic.Lib.ValueLayout
import Idealize.ShloMosaic.Lib.KernelVsHost

set_option maxRecDepth 16384

noncomputable section

namespace Cert.KernelIdeal.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The labels as a column: the reshape of the label vector keeps every entry at its row. -/
theorem V_v0 (c : Dev nD) (o : Fin 2048) : (V (F := Ideal) m c main_v0 : S2048x1.Idx → BitVec 32) (ix2 o 0) = (m ((c : Thread nD τ).loc main_arg4) : S2048.Idx → BitVec 32) (ix1 o) := by
  have e : (V (F := Ideal) m c main_v0 : S2048x1.Idx → BitVec 32)
      = shapeCast S2048x1 (m ((c : Thread nD τ).loc main_arg4) : S2048.Idx → BitVec 32) Facts₀.shapeCasts_S2048_S2048x1 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  refine shapeCast_apply _ _ _ _ ?_
  show (S2048.rowMajor (ix1 o)).val = (S2048x1.rowMajor (ix2 o (0 : Fin 1))).val
  rw [Shape.rowMajor_val_one, Shape.rowMajor_val_two]
  show o.val = o.val * 1 + 0
  omega

/-- The detection boxes, one coordinate per row: the box table padded behind with zero rows, then transposed. -/
theorem V_v3 (c : Dev nD) (k : Fin 4) (d : Fin 10240) : (V (F := Ideal) m c main_v3 : S4x10240.Idx → EReal) (ix2 k d) = if h : d.val < 8732 then (m ((c : Thread nD τ).loc main_arg0) : S8732x4.Idx → EReal) (ix2 ⟨d.val, h⟩ k) else (0 : EReal) := by
  have e : (V (F := Ideal) m c main_v3 : S4x10240.Idx → EReal)
      = transpose S4x10240 [1, 0] (pad S10240x4 ![0, 0] ![1508, 0] ![0, 0] (m ((c : Thread nD τ).loc main_arg0) : S8732x4.Idx → EReal) (sitofp (F := Ideal) .f32 (constantI S_ 32 0#32)) Facts₀.pads_S8732x4_S10240x4_015080_000 Facts₀.h_S_) Facts₀.transposes_S10240x4_S4x10240_1_0 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  rw [transpose_ix2_apply _ Facts₀.transposes_S10240x4_S4x10240_1_0 k d]
  by_cases h : d.val < 8732
  · rw [dif_pos h]
    refine pad_apply_of_inside _ _ _ _ _ _ _ (ix2 d k) (ix2 ⟨d.val, h⟩ k) ?_
    intro a
    match a with
    | ⟨0, _⟩ => show d.val = 0 + d.val * (0 + 1); omega
    | ⟨1, _⟩ => show k.val = 0 + k.val * (0 + 1); omega
  · rw [dif_neg h]
    rw [pad_apply_of_not_inside _ _ _ _ _ _ _ (ix2 d k) (0 : Fin 2) (by
      show ¬ (0 ≤ d.val ∧ (d.val - 0) % (0 + 1) = 0 ∧ (d.val - 0) / (0 + 1) < 8732)
      omega)]
    -- the padding value: the integer zero converted is the real zero
    exact sitofp_zero (φ := .f32)

/-- The detection labels as a row: the label vector padded behind with the word of all ones (−1), then reshaped. -/
theorem V_v4 (c : Dev nD) (d : Fin 10240) : (V (F := Ideal) m c main_v4 : S1x10240.Idx → BitVec 32) (ix2 0 d) = if h : d.val < 8732 then (m ((c : Thread nD τ).loc main_arg2) : S8732.Idx → BitVec 32) (ix1 ⟨d.val, h⟩) else 4294967295#32 := by
  have e : (V (F := Ideal) m c main_v4 : S1x10240.Idx → BitVec 32)
      = shapeCast S1x10240 (pad S10240 ![0] ![1508] ![0] (m ((c : Thread nD τ).loc main_arg2) : S8732.Idx → BitVec 32) (constantI S_ 32 4294967295#32) Facts₀.pads_S8732_S10240_015080 Facts₀.h_S_) Facts₀.shapeCasts_S10240_S1x10240 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  rw [shapeCast_apply _ Facts₀.shapeCasts_S10240_S1x10240 (ix2 (0 : Fin 1) d) (ix1 d) (by
    show (S10240.rowMajor (ix1 d)).val = (S1x10240.rowMajor (ix2 (0 : Fin 1) d)).val
    rw [Shape.rowMajor_val_one, Shape.rowMajor_val_two]
    show d.val = 0 * 10240 + d.val
    omega)]
  by_cases h : d.val < 8732
  · rw [dif_pos h]
    refine pad_apply_of_inside _ _ _ _ _ _ _ (ix1 d) (ix1 ⟨d.val, h⟩) ?_
    intro a
    match a with
    | ⟨0, _⟩ => show d.val = 0 + d.val * (0 + 1); omega
  · rw [dif_neg h]
    rw [pad_apply_of_not_inside _ _ _ _ _ _ _ (ix1 d) (0 : Fin 1) (by
      show ¬ (0 ≤ d.val ∧ (d.val - 0) % (0 + 1) = 0 ∧ (d.val - 0) / (0 + 1) < 8732)
      omega)]
    rfl

/-- Under the precondition every label is nonnegative as a signed word, so none is the word of all ones (−1):
    the precondition's last conjunct is the conjunction over all labels of "label ≥ 0, signed". -/
theorem labels_ne [Cert.Pre_finite_inputs.Facts] (h : Cert.Pre_KernelIdeal m) (c : Dev nD) (o : Fin 2048) : (m ((c : Thread nD τ).loc main_arg4) : S2048.Idx → BitVec 32) (ix1 o) ≠ 4294967295#32 := by
  -- the scalar shape has one index
  haveI : Subsingleton Cert.Pre_finite_inputs.S_.Idx := ⟨fun a b => funext fun d => d.elim0⟩
  have h0 := congrFun (h c) ValueIdx.ix0
  dsimp only [Cert.Pre_finite_inputs.fn, Cert.Pre_finite_inputs.fn_part1] at h0
  -- the last conjunct: the reduction by "and" of the labels' comparisons is 1
  have h1 := (IntOp.andi_eq_one.1 h0).2
  -- so each comparison is 1
  have h2 := Host.reduce_andi_all _ _ _ _ _ h1 (ix1 o)
  -- a comparison "≥, signed" that is 1 orders the two words as integers; the right-hand word is the constant 0
  have h3 : (0#32 : BitVec 32).toInt ≤ ((m ((c : Thread nD τ).loc main_arg4) : S2048.Idx → BitVec 32) (ix1 o)).toInt :=
    IntOp.cmpi_sge.1 h2
  intro hh
  rw [hh] at h3
  exact absurd h3 (by decide)

end Cert.KernelIdeal.Host

end
-- ==== Proof.KernelValue.lean ====
/-
  The idealized kernel's run, read: after the last grid point the [1,1] output block holds the loss of the arrays
  the region was launched on, the one write-back puts it in the result array, the reshape after the region
  makes it the scalar result; and those arrays are the arguments — the detections padded with zero boxes of
  label −1, which no object carries under the precondition — so the result is the loss of the arguments.
-/
import proofs.«150649_j31619549233713_1_alg».proof.Proof.Invariant
import proofs.«150649_j31619549233713_1_alg».proof.Proof.HostPrefix

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (m : (ℓ : Loc nD τ sig) → Buf (Elt Ideal) ℓ) (ρ : Dev nD → PrngReg)

/-- The loss of the arrays the region was launched on. -/
def lossK (c : Dev nD) : EReal := loss (bxA m c) (lbA m c) (dxA m c) (dlA m c)

theorem h39 : 39 < cfg0.N := lt_of_lt_of_eq (by decide) N40.symm

/-- The last grid point. -/
abbrev t39 : Fin cfg0.N := ⟨39, h39⟩

/-- After the last point (a point `t` with `t = 39`, kept symbolic) the output block holds the loss. -/
theorem out_last (c : Dev nD) (t : Fin cfg0.N) (ht : t.val = 39) :
    (outsAt0 m c t.val t.isLt).1 (ix2 0 0) = lossK m c := by
  have hI := inv m c t.val t.isLt
  have hE := stepE m c t (by omega) (by omega) (by omega) (by omega)
  refine hE.2.2.2.2.trans ?_
  rw [← hE.2.2.1, ← hE.2.2.2.1, hI.2.2.1, hI.2.2.2, ht]
  show Ideal.div (partSum _ _ _ _ 8) (partCnt _ _ 8) = _
  rw [partSum_eight, partCnt_eight]
  rfl

/-- The result array's contents after the run: its one element is the loss. -/
def G (c : Dev nD) : Buf (Elt Ideal) ((c : Thread nD τ).loc main_v5) := fun _ => lossK m c

theorem out_last_eq (c : Dev nD) (t : Fin cfg0.N) (ht : t.val = 39) : (outsAt0 m c t.val t.isLt).1 = G m c := by
  funext y
  have h0 : y 0 = (0 : Fin 1) := Fin.ext (Nat.lt_one_iff.mp (idx2_lt0 y))
  have h1 : y 1 = (0 : Fin 1) := Fin.ext (Nat.lt_one_iff.mp (idx2_lt1 y))
  have hy : y = ix2 0 0 := by rw [eq_ix2 y, h0, h1]; exact rfl
  rw [hy]
  exact out_last m c t ht

/-- The one write-back, at the last point, writes the loss: the [1,1] block is the whole [1,1] array. -/
theorem flushed_eq (c : Dev nD) (t : Fin cfg0.N) (hf : (cfg0.win 4).flush t = true) :
    (dats m 0 c).flushed 4 t = ((cfg0.win 4).blk t).view.read (Elt Ideal) (G m c) := by
  have ht : t.val = 39 := by
    have h1 := (flush0_4 t).mp hf
    have h2 : t.val < 40 := lt_of_lt_of_eq t.isLt N40
    omega
  show (cfg0.win 4).cut (grid0.coords t) ((dats m 0 c).after 4 t) = _
  rw [after0_4, out_last_eq m c t ht]
  have hz : (fun a => win0_4.index t a * main_v5.ty.shape.size a) = fun _ => 0 :=
    funext fun a => (by decide +kernel : ∀ (t : Fin grid0.N) (a : Fin 2), win0_4.index t a * main_v5.ty.shape.size a = 0) t a
  exact (Memref.read_access_unit_zero (Elt Ideal) main_v5 hz (fun a => by rw [congrFun hz a]; simp) (G m c)).symm

/-- So the result array ends holding the loss: the last point's block covers it. -/
theorem final (c : Dev nD) : (dats m 0 c).arrAt 4 cfg0.N = G m c :=
  (dats m 0 c).arrAt_eq_of_cover 4 (G m c) (flushed_eq m c) fun i =>
    ⟨t39, (flush0_4 t39).mpr rfl, by
      show i ∈ ((View.whole main_v5).slice (win0_4.rect t39)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t39 0 * win0_4.size 0 ≤ (i 0 : Nat) ∧ (i 0 : Nat) < win0_4.index t39 0 * win0_4.size 0 + win0_4.xsize (grid0.coords t39) 0
        rw [show win0_4.index t39 0 * win0_4.size 0 = 0 from by decide +kernel, show win0_4.xsize (grid0.coords t39) 0 = 1 from by decide +kernel]; omega
      | ⟨1, _⟩ =>
        show win0_4.index t39 1 * win0_4.size 1 ≤ (i 1 : Nat) ∧ (i 1 : Nat) < win0_4.index t39 1 * win0_4.size 1 + win0_4.xsize (grid0.coords t39) 1
        rw [show win0_4.index t39 1 * win0_4.size 1 = 0 from by decide +kernel, show win0_4.xsize (grid0.coords t39) 1 = 1 from by decide +kernel]; omega⟩

/-- The scalar result after the region's reshape: the loss. -/
theorem tail_eq (c : Dev nD) :
    Pipeline.afterTail₀ cfgs (dats m) 0 (V0 m) [hostOps1] c main_v6 = fun _ => lossK m c := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v5) = G m c :=
    (Pipeline.withArrays_arr spec0 launch0.win.arr_inj c _ _ 4).trans (final m c)
  funext i
  rw [hw]
  rfl

/-- THE RUN, READ: the scalar result ends at the loss of the arrays the region was launched on, the arguments
    unchanged. -/
theorem run_arrays : θ_run defs (onTc (τ := τ) (main (F := Ideal))) ⟨m, fun _ => 0, ρ⟩ fun r => ∀ c : Dev nD,
      r.2.mem ((c.tc : Thread nD τ).loc main_v6) = (fun _ => lossK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).2 main_arg4 (Pipeline.mem_restRefs_of main_arg4 (by decide) (by decide))).trans (W_main_arg4 m (dats m) c)⟩)
    (run_main m ρ)

/-- The arrays the region was launched on are the arguments, the detections padded with zero boxes of label −1;
    no object carries that label under the precondition, so their loss is the arguments' loss. -/
theorem lossK_eq [Cert.Pre_finite_inputs.Facts] (hpre : Cert.Pre_KernelIdeal m) (c : Dev nD) :
    lossK m c = loss (O := Fin 2048) (D := Fin 8732)
      (fun o k => (m ((c.tc : Thread nD τ).loc main_arg3) : S2048x4.Idx → EReal) (ix2 o k))
      (fun o => (m ((c.tc : Thread nD τ).loc main_arg4) : S2048.Idx → BitVec 32) (ix1 o))
      (fun d k => (m ((c.tc : Thread nD τ).loc main_arg0) : S8732x4.Idx → EReal) (ix2 d k))
      (fun d => (m ((c.tc : Thread nD τ).loc main_arg2) : S8732.Idx → BitVec 32) (ix1 d)) := by
  have hb : bxA m c = fun o k => (m ((c.tc : Thread nD τ).loc main_arg3) : S2048x4.Idx → EReal) (ix2 o k) := by
    funext o k; unfold bxA; rw [V_main_arg3]
  have hl : lbA m c = fun o => (m ((c.tc : Thread nD τ).loc main_arg4) : S2048.Idx → BitVec 32) (ix1 o) :=
    funext fun o => Host.V_v0 m c o
  have hd : dxA m c = fun d k => if h : d.val < 8732 then
      (m ((c.tc : Thread nD τ).loc main_arg0) : S8732x4.Idx → EReal) (ix2 ⟨d.val, h⟩ k) else (0 : EReal) :=
    funext fun d => funext fun k => Host.V_v3 m c k d
  have hdl : dlA m c = fun d => if h : d.val < 8732 then
      (m ((c.tc : Thread nD τ).loc main_arg2) : S8732.Idx → BitVec 32) (ix1 ⟨d.val, h⟩) else 4294967295#32 :=
    funext fun d => Host.V_v4 m c d
  unfold lossK
  rw [hb, hl, hd, hdl]
  exact loss_pad
    (fun o k => (m ((c.tc : Thread nD τ).loc main_arg3) : S2048x4.Idx → EReal) (ix2 o k))
    (fun o => (m ((c.tc : Thread nD τ).loc main_arg4) : S2048.Idx → BitVec 32) (ix1 o))
    (fun d k => (m ((c.tc : Thread nD τ).loc main_arg0) : S8732x4.Idx → EReal) (ix2 d k))
    (fun d => (m ((c.tc : Thread nD τ).loc main_arg2) : S8732.Idx → BitVec 32) (ix1 d))
    (fun o => Host.labels_ne m hpre c o)

end Cert.KernelIdeal.KV

end
-- ==== Proof.RefValue.lean ====
/-
  The reference's result, read off its run: the loss of Spec.lean over the argument arrays.

  The reference computes, for every (object, detection) pair, the intersection over union of the two boxes, masks it
  to −∞ where the labels differ, takes per object the maximum over the detections and the or of the mask bits, counts
  the matched objects, sums `1 − best` over them and divides by the count. Each stage below reads one of these values
  at an index over the argument arrays; the last assembles them into `Spec.loss`.
-/
import proofs.«150649_j31619549233713_1_alg».proof.Proof.RefRead
import proofs.«150649_j31619549233713_1_alg».proof.Proof.Spec
import Idealize.ShloMosaic.PureOps.Reduce
import Idealize.ShloMosaic.Lib.ValueIdx
import Idealize.ShloMosaic.Lib.StableHlo.Predicate

noncomputable section

namespace Cert.ReferenceIdeal.RefValue

open Cert.ReferenceIdeal Cert.ReferenceIdeal.Read Idealize.ShloMosaic Idealize.ShloMosaic.ValueIdx
open scoped BigOperators

/-! ## Words and folds (no program) -/

/-- The word `0xFF800000` reads as −∞. -/
theorem ofBits_negInf : Ideal.ofBits .f32 0xFF800000#32 = (⊥ : EReal) := by
  simp [Ideal.ofBits, Ideal.ieee]

/-- A select on an equality test is the `if` on the equality. -/
theorem select_cmpi_eq {α : Type} {w : Nat} (a b : BitVec w) (A B : α) [Decidable (a = b)] :
    Scalar.select (IntOp.cmpi .eq a b) A B = if a = b then A else B := by
  by_cases h : a = b
  · rw [StableHlo.Predicate.cmpi_eq_iff.2 h, select_one, if_pos h]
  · rw [eq_zero_of_ne_one (fun e => h (StableHlo.Predicate.cmpi_eq_iff.1 e)), select_zero, if_neg h]

/-- An or of two bits is set exactly when one of them is. -/
theorem ori_eq_one (a b : BitVec 1) : IntOp.ori a b = 1#1 ↔ a = 1#1 ∨ b = 1#1 := by
  revert a b; decide

/-- From the clear bit, a fold by `or` is set exactly when some bit of the family is. -/
theorem fold_ori_eq_one {ι : Type} (S : Finset ι) (f : ι → BitVec 1) :
    S.fold IntOp.ori 0#1 f = 1#1 ↔ ∃ k ∈ S, f k = 1#1 := by
  classical
  induction S using Finset.cons_induction with
  | empty => simp
  | cons a S ha ih =>
    rw [Finset.fold_cons, ori_eq_one, ih]
    simp only [Finset.mem_cons, exists_eq_or_imp]

/-- From zero, the word sum of a family of widened bits, read signed, is the number of set bits
    (fewer than 2³¹ of them, so that nothing wraps). -/
theorem toInt_fold_addi_bits {ι : Type} [Fintype ι] [DecidableEq ι] (f : ι → BitVec 1) (hc : Fintype.card ι < 2 ^ 31) :
    ((Finset.univ : Finset ι).fold IntOp.addi 0#32 (fun i => (f i).setWidth 32)).toInt
      = (((Finset.univ.filter fun i => f i = 1#1).card : ℕ) : ℤ) := by
  have hsum : ∑ i : ι, ((f i).setWidth 32).toNat = (Finset.univ.filter fun i => f i = 1#1).card := by
    rw [Finset.card_filter]
    exact Finset.sum_congr rfl fun i _ => StableHlo.Predicate.toNat_setWidth_bit (f i)
  have hle : (Finset.univ.filter fun i => f i = 1#1).card ≤ Fintype.card ι := Finset.card_le_univ _
  have hnat := StableHlo.Predicate.toNat_fold_addi (Finset.univ : Finset ι) (fun i => (f i).setWidth 32) (by rw [hsum]; omega)
  rw [StableHlo.Predicate.toInt_eq_toNat_of_lt (by rw [hnat, hsum]; omega), hnat, hsum]

/-! ## The source index over a result index of a one-axis reduction, by coordinates -/

/-- Over row `o` of an [n × m] rectangle reduced along its columns, column `k` is the index (o, k). -/
theorem lift_cols {n m : Nat} (h : (⟨2, ![n, m]⟩ : Shape).Reduces [1] (⟨1, ![n]⟩ : Shape)) (o : Fin n)
    (k : Fin ((⟨2, ![n, m]⟩ : Shape).size 1)) : h.lift (ix1 o) k = ix2 o (⟨k.val, k.isLt⟩ : Fin m) := by
  funext c; apply Fin.ext
  fin_cases c <;> rfl

/-- The rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A fold over a rank-1 index set is the fold over its coordinate. -/
theorem fold_idx1 {β : Type} (op : β → β → β) [Std.Commutative op] [Std.Associative op] (b : β) {n : Nat}
    (f : (⟨1, ![n]⟩ : Shape).Idx → β) :
    (Finset.univ : Finset (⟨1, ![n]⟩ : Shape).Idx).fold op b f = (Finset.univ : Finset (Fin n)).fold op b (fun a => f (ix1 a)) := by
  rw [← Finset.map_univ_equiv (idxEquiv1 (n := n)).symm, Finset.fold_map]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The argument arrays by coordinates -/

section Stages

variable (x0 : S8732x4.Idx → EReal) (x2 : S8732.Idx → BitVec 32) (x3 : S2048x4.Idx → EReal) (x4 : S2048.Idx → BitVec 32)

/-- Object boxes by (object, coordinate). -/
abbrev bx : Fin 2048 → Fin 4 → EReal := fun o k => x3 (ix2 o k)
/-- Object labels. -/
abbrev lb : Fin 2048 → BitVec 32 := fun o => x4 (ix1 o)
/-- Detection boxes by (detection, coordinate). -/
abbrev dx : Fin 8732 → Fin 4 → EReal := fun d k => x0 (ix2 d k)
/-- Detection labels. -/
abbrev dl : Fin 8732 → BitVec 32 := fun d => x2 (ix1 d)

/-- Two indices agree when all their coordinates compute to the same numbers. -/
local macro "idx_rfl" : tactic => `(tactic| (funext a; apply Fin.ext; fin_cases a <;> rfl))

/-- Row of a flattened (object, detection) position. -/
theorem div_row (o : Fin 2048) (d : Fin 8732) : (o.val * 8732 + d.val) / 8732 = o.val := by
  have := o.isLt; have := d.isLt; omega
/-- Column of a flattened (object, detection) position. -/
theorem mod_col (o : Fin 2048) (d : Fin 8732) : (o.val * 8732 + d.val) / 1 % 8732 = d.val := by
  have := d.isLt; omega

/-! ## (a) The overlap matrix -/

/-- The overlap width along x, before clipping. -/
theorem v14_at0 (o : Fin 2048) (d : Fin 8732) :
    val_main_v14 (F := Ideal) x0 x3 (ix3 o d (0 : Fin 2))
      = min (x3 (ix2 o (2 : Fin 4))) (x0 (ix2 d (2 : Fin 4))) - max (x3 (ix2 o (0 : Fin 4))) (x0 (ix2 d (0 : Fin 4))) := by
  have e1 : idx_main_v7 (idx_main_v8 (idx_main_v11 (ix3 o d (0 : Fin 2)))) = ix2 o (2 : Fin 4) := by idx_rfl
  have e2 : idx_main_v9 (idx_main_v10 (idx_main_v12 (ix3 o d (0 : Fin 2)))) = ix2 d (2 : Fin 4) := by idx_rfl
  have e3 : idx_main_v0 (idx_main_v1 (idx_main_v4 (ix3 o d (0 : Fin 2)))) = ix2 o (0 : Fin 4) := by idx_rfl
  have e4 : idx_main_v2 (idx_main_v3 (idx_main_v5 (ix3 o d (0 : Fin 2)))) = ix2 d (0 : Fin 4) := by idx_rfl
  rw [val_main_v14_apply, val_main_v13_apply, val_main_v6_apply, val_main_v11_apply, val_main_v12_apply,
    val_main_v4_apply, val_main_v5_apply, val_main_v8_apply, val_main_v10_apply, val_main_v1_apply, val_main_v3_apply,
    val_main_v7_apply, val_main_v9_apply, val_main_v0_apply, val_main_v2_apply, e1, e2, e3, e4]
  rfl

/-- The overlap width along y, before clipping. -/
theorem v14_at1 (o : Fin 2048) (d : Fin 8732) :
    val_main_v14 (F := Ideal) x0 x3 (ix3 o d (1 : Fin 2))
      = min (x3 (ix2 o (3 : Fin 4))) (x0 (ix2 d (3 : Fin 4))) - max (x3 (ix2 o (1 : Fin 4))) (x0 (ix2 d (1 : Fin 4))) := by
  have e1 : idx_main_v7 (idx_main_v8 (idx_main_v11 (ix3 o d (1 : Fin 2)))) = ix2 o (3 : Fin 4) := by idx_rfl
  have e2 : idx_main_v9 (idx_main_v10 (idx_main_v12 (ix3 o d (1 : Fin 2)))) = ix2 d (3 : Fin 4) := by idx_rfl
  have e3 : idx_main_v0 (idx_main_v1 (idx_main_v4 (ix3 o d (1 : Fin 2)))) = ix2 o (1 : Fin 4) := by idx_rfl
  have e4 : idx_main_v2 (idx_main_v3 (idx_main_v5 (ix3 o d (1 : Fin 2)))) = ix2 d (1 : Fin 4) := by idx_rfl
  rw [val_main_v14_apply, val_main_v13_apply, val_main_v6_apply, val_main_v11_apply, val_main_v12_apply,
    val_main_v4_apply, val_main_v5_apply, val_main_v8_apply, val_main_v10_apply, val_main_v1_apply, val_main_v3_apply,
    val_main_v7_apply, val_main_v9_apply, val_main_v0_apply, val_main_v2_apply, e1, e2, e3, e4]
  rfl

/-- The clip: the maximum with the zero word, read with the width first. -/
theorem v15_at (i : S2048x8732x2.Idx) (w : EReal) (hw : val_main_v14 (F := Ideal) x0 x3 i = w) :
    val_main_v15 (F := Ideal) x0 x3 i = max w 0 := by
  rw [val_main_v15_apply, val_main_call0_v1_apply, val_main_call0_v0_apply, val_main_cst_apply, hw, Ideal.ofBits_def,
    Ideal.ofBits_zero_f32, Ideal.maximumf_def, max_comm]

/-- The overlap area: the product of the two clipped widths. -/
theorem v20_at (o : Fin 2048) (d : Fin 8732) :
    val_main_v20 (F := Ideal) x0 x3 (ix2 o d)
      = max (min (x3 (ix2 o (2 : Fin 4))) (x0 (ix2 d (2 : Fin 4))) - max (x3 (ix2 o (0 : Fin 4))) (x0 (ix2 d (0 : Fin 4)))) 0
        * max (min (x3 (ix2 o (3 : Fin 4))) (x0 (ix2 d (3 : Fin 4))) - max (x3 (ix2 o (1 : Fin 4))) (x0 (ix2 d (1 : Fin 4)))) 0 := by
  have e1 : idx_main_v16 (idx_main_v17 (ix2 o d)) = ix3 o d (0 : Fin 2) := by
    funext a; apply Fin.ext
    match a with
    | ⟨0, _⟩ => exact div_row o d
    | ⟨1, _⟩ => exact mod_col o d
    | ⟨2, _⟩ => rfl
  have e2 : idx_main_v18 (idx_main_v19 (ix2 o d)) = ix3 o d (1 : Fin 2) := by
    funext a; apply Fin.ext
    match a with
    | ⟨0, _⟩ => exact div_row o d
    | ⟨1, _⟩ => exact mod_col o d
    | ⟨2, _⟩ => rfl
  rw [val_main_v20_apply, val_main_v17_apply, val_main_v16_apply, e1, v15_at x0 x3 _ _ (v14_at0 x0 x3 o d),
    val_main_v19_apply, val_main_v18_apply, e2, v15_at x0 x3 _ _ (v14_at1 x0 x3 o d), Ideal.mulf_def]

/-- An object's box area. -/
theorem v31_at (o : Fin 2048) :
    val_main_v31 (F := Ideal) x3 (ix1 o)
      = (x3 (ix2 o (2 : Fin 4)) - x3 (ix2 o (0 : Fin 4))) * (x3 (ix2 o (3 : Fin 4)) - x3 (ix2 o (1 : Fin 4))) := by
  have e1 : idx_main_v21 (idx_main_v22 (ix1 o)) = ix2 o (2 : Fin 4) := by
    funext a; apply Fin.ext
    match a with
    | ⟨0, _⟩ => exact Nat.div_one _
    | ⟨1, _⟩ => rfl
  have e2 : idx_main_v23 (idx_main_v24 (ix1 o)) = ix2 o (0 : Fin 4) := by
    funext a; apply Fin.ext
    match a with
    | ⟨0, _⟩ => exact Nat.div_one _
    | ⟨1, _⟩ => rfl
  have e3 : idx_main_v26 (idx_main_v27 (ix1 o)) = ix2 o (3 : Fin 4) := by
    funext a; apply Fin.ext
    match a with
    | ⟨0, _⟩ => exact Nat.div_one _
    | ⟨1, _⟩ => rfl
  have e4 : idx_main_v28 (idx_main_v29 (ix1 o)) = ix2 o (1 : Fin 4) := by
    funext a; apply Fin.ext
    match a with
    | ⟨0, _⟩ => exact Nat.div_one _
    | ⟨1, _⟩ => rfl
  rw [val_main_v31_apply, val_main_v25_apply, val_main_v30_apply, val_main_v22_apply, val_main_v24_apply,
    val_main_v27_apply, val_main_v29_apply, val_main_v21_apply, val_main_v23_apply, val_main_v26_apply,
    val_main_v28_apply, e1, e2, e3, e4]
  rfl

/-- A detection's box area. -/
theorem v42_at (d : Fin 8732) :
    val_main_v42 (F := Ideal) x0 (ix1 d)
      = (x0 (ix2 d (2 : Fin 4)) - x0 (ix2 d (0 : Fin 4))) * (x0 (ix2 d (3 : Fin 4)) - x0 (ix2 d (1 : Fin 4))) := by
  have e1 : idx_main_v32 (idx_main_v33 (ix1 d)) = ix2 d (2 : Fin 4) := by
    funext a; apply Fin.ext
    match a with
    | ⟨0, _⟩ => exact Nat.div_one _
    | ⟨1, _⟩ => rfl
  have e2 : idx_main_v34 (idx_main_v35 (ix1 d)) = ix2 d (0 : Fin 4) := by
    funext a; apply Fin.ext
    match a with
    | ⟨0, _⟩ => exact Nat.div_one _
    | ⟨1, _⟩ => rfl
  have e3 : idx_main_v37 (idx_main_v38 (ix1 d)) = ix2 d (3 : Fin 4) := by
    funext a; apply Fin.ext
    match a with
    | ⟨0, _⟩ => exact Nat.div_one _
    | ⟨1, _⟩ => rfl
  have e4 : idx_main_v39 (idx_main_v40 (ix1 d)) = ix2 d (1 : Fin 4) := by
    funext a; apply Fin.ext
    match a with
    | ⟨0, _⟩ => exact Nat.div_one _
    | ⟨1, _⟩ => rfl
  rw [val_main_v42_apply, val_main_v36_apply, val_main_v41_apply, val_main_v33_apply, val_main_v35_apply,
    val_main_v38_apply, val_main_v40_apply, val_main_v32_apply, val_main_v34_apply, val_main_v37_apply,
    val_main_v39_apply, e1, e2, e3, e4]
  rfl

/-- The overlap matrix is the intersection over union of the two boxes. -/
theorem v49_at (o : Fin 2048) (d : Fin 8732) :
    val_main_v49 (F := Ideal) x0 x3 (ix2 o d)
      = Spec.iou (x3 (ix2 o (0 : Fin 4))) (x3 (ix2 o (1 : Fin 4))) (x3 (ix2 o (2 : Fin 4))) (x3 (ix2 o (3 : Fin 4)))
          (x0 (ix2 d (0 : Fin 4))) (x0 (ix2 d (1 : Fin 4))) (x0 (ix2 d (2 : Fin 4))) (x0 (ix2 d (3 : Fin 4))) := by
  have e1 : idx_main_v43 (idx_main_v45 (ix2 o d)) = ix1 o := by idx_rfl
  have e2 : idx_main_v44 (idx_main_v46 (ix2 o d)) = ix1 d := by idx_rfl
  rw [val_main_v49_apply, val_main_v48_apply, val_main_v47_apply, val_main_v45_apply, val_main_v43_apply, e1,
    val_main_v46_apply, val_main_v44_apply, e2, v31_at, v42_at, v20_at]
  rfl

/-! ## (b) The same-label mask and the masked matrix -/

/-- The mask bit compares the object's label with the detection's. -/
theorem v54_at (o : Fin 2048) (d : Fin 8732) :
    val_main_v54 (F := Ideal) x2 x4 (ix2 o d) = IntOp.cmpi .eq (x4 (ix1 o)) (x2 (ix1 d)) := by
  have e1 : idx_main_v50 (idx_main_v52 (ix2 o d)) = ix1 o := by idx_rfl
  have e2 : idx_main_v51 (idx_main_v53 (ix2 o d)) = ix1 d := by idx_rfl
  rw [val_main_v54_apply, val_main_v52_apply, val_main_v50_apply, e1, val_main_v53_apply, val_main_v51_apply, e2]

/-- The mask bit is set exactly when the labels agree. -/
theorem v54_eq_one (o : Fin 2048) (d : Fin 8732) :
    val_main_v54 (F := Ideal) x2 x4 (ix2 o d) = 1#1 ↔ x4 (ix1 o) = x2 (ix1 d) := by
  rw [v54_at]; exact StableHlo.Predicate.cmpi_eq_iff

/-- The masked matrix: the overlap where the labels agree, −∞ elsewhere. -/
theorem v55_at (o : Fin 2048) (d : Fin 8732) :
    val_main_v55 (F := Ideal) x0 x2 x3 x4 (ix2 o d) = Spec.masked (bx x3) (lb x4) (dx x0) (dl x2) o d := by
  rw [val_main_v55_apply, v54_at, v49_at, val_main_call1_v1_apply, val_main_call1_v0_apply, val_main_cst_0_apply,
    Ideal.ofBits_def, ofBits_negInf, select_cmpi_eq]
  rfl

/-! ## (c) The three reductions -/

/-- Reducing the [2048 × 8732] rectangle along its columns leaves the [2048] rows. -/
theorem red_cols : S2048x8732.Reduces [1] S2048 := by decide

/-- The maximum over the detections, from −∞: the best overlap among the detections of the object's label. -/
theorem v56_at (o : Fin 2048) :
    val_main_v56 (F := Ideal) x0 x2 x3 x4 (ix1 o) = Spec.best (bx x3) (lb x4) (dx x0) (dl x2) o := by
  have h : val_main_v56 (F := Ideal) x0 x2 x3 x4 (ix1 o)
      = (Finset.univ : Finset (Fin (S2048x8732.size 1))).fold (FloatOps.maximumf (F := Ideal) (φ := .f32))
          (val_main_cst_1 (F := Ideal) (Shape.Idx.first _)) (val_main_v55 (F := Ideal) x0 x2 x3 x4 ∘ red_cols.lift (ix1 o)) :=
    Host.reduce_eq_fold_single (FloatOps.maximumf (F := Ideal) (φ := .f32)) _ _ _ red_cols _ (ix1 o)
  have hf : (val_main_v55 (F := Ideal) x0 x2 x3 x4 ∘ red_cols.lift (ix1 o))
      = fun k : Fin 8732 => Spec.masked (bx x3) (lb x4) (dx x0) (dl x2) o k :=
    funext fun k => by
      show val_main_v55 (F := Ideal) x0 x2 x3 x4 (red_cols.lift (ix1 o) k) = _
      rw [lift_cols red_cols o k]; exact v55_at x0 x2 x3 x4 o _
  rw [h, hf, val_main_cst_1_apply, Ideal.ofBits_def, ofBits_negInf]
  rfl

/-- The or over the detections, from the clear bit: the object has a detection of its label. -/
theorem v57_eq_one (o : Fin 2048) :
    val_main_v57 (F := Ideal) x2 x4 (ix1 o) = 1#1 ↔ Spec.has (lb x4) (dl x2) o := by
  have h : val_main_v57 (F := Ideal) x2 x4 (ix1 o)
      = (Finset.univ : Finset (Fin (S2048x8732.size 1))).fold (IntOp.ori (w := 1))
          (val_main_c (F := Ideal) (Shape.Idx.first _)) (val_main_v54 (F := Ideal) x2 x4 ∘ red_cols.lift (ix1 o)) :=
    Host.reduce_eq_fold_single (IntOp.ori (w := 1)) _ _ _ red_cols _ (ix1 o)
  rw [h, val_main_c_apply, fold_ori_eq_one]
  unfold Spec.has
  constructor
  · rintro ⟨k, _, hk⟩
    rw [Function.comp_apply, lift_cols red_cols o k] at hk
    exact ⟨_, (v54_eq_one x2 x4 o _).1 hk⟩
  · rintro ⟨d, hd⟩
    refine ⟨⟨d.val, d.isLt⟩, Finset.mem_univ _, ?_⟩
    rw [Function.comp_apply, lift_cols red_cols o]
    exact (v54_eq_one x2 x4 o _).2 hd

/-- The integer sum of the widened bits, read signed: the number of matched objects. -/
theorem v59_toInt :
    (val_main_v59 (F := Ideal) x2 x4 ix0).toInt = ((Spec.cnt (lb x4) (dl x2) : ℕ) : ℤ) := by
  classical
  -- every index of the array drops to the one index of the scalar shape
  have hall : ∀ (hh : S2048.ReducesTo [0] S_) (i : S2048.Idx), (hh.drop i = ix0) = True :=
    fun _ _ => eq_true (funext fun b => b.elim0)
  have hf : (fun a : Fin 2048 => val_main_v58 (F := Ideal) x2 x4 (ix1 a))
      = fun a : Fin 2048 => (val_main_v57 (F := Ideal) x2 x4 (ix1 a)).setWidth 32 :=
    funext fun a => val_main_v58_apply x2 x4 (ix1 a)
  unfold val_main_v59
  rw [Host.reduce_eq_fold]
  simp only [hall, Finset.filter_true]
  rw [val_main_c_2_apply, fold_idx1, hf,
    toInt_fold_addi_bits (fun k : Fin 2048 => val_main_v57 (F := Ideal) x2 x4 (ix1 k))
      (by rw [Fintype.card_fin]; norm_num)]
  unfold Spec.cnt
  exact congrArg (fun s : Finset (Fin 2048) => ((s.card : ℕ) : ℤ))
    (Finset.filter_congr fun k _ => v57_eq_one x2 x4 k)

/-- The count as a float: the number of matched objects, cast. -/
theorem v60_at (i : S_.Idx) :
    val_main_v60 (F := Ideal) x2 x4 i = (((Spec.cnt (lb x4) (dl x2) : ℕ) : ℝ) : EReal) := by
  rw [val_main_v60_apply, eq_ix0 i]
  show (((val_main_v59 (F := Ideal) x2 x4 ix0).toInt : ℝ) : EReal) = _
  rw [v59_toInt, Int.cast_natCast]

/-! ## (d) The contributions, their sum, and the quotient -/

/-- What an object adds: one less its best overlap when it is matched, zero otherwise. -/
theorem v63_at (o : Fin 2048) :
    val_main_v63 (F := Ideal) x0 x2 x3 x4 (ix1 o) = Spec.contrib (bx x3) (lb x4) (dx x0) (dl x2) o := by
  rw [val_main_v63_apply, val_main_v62_apply, val_main_v61_apply, val_main_cst_3_apply, v56_at,
    val_main_call2_v1_apply, val_main_call2_v0_apply, val_main_cst_4_apply]
  simp only [Ideal.ofBits_def, Ideal.ofBits_zero_f32, Ideal.subf_def]
  unfold Spec.contrib
  by_cases h : Spec.has (lb x4) (dl x2) o
  · rw [(v57_eq_one x2 x4 o).2 h, select_one, if_pos h]
  · rw [eq_zero_of_ne_one (fun e => h ((v57_eq_one x2 x4 o).1 e)), select_zero, if_neg h]

/-- The float sum, from the zero word: the sum of the contributions. -/
theorem v64_at (i : S_.Idx) :
    val_main_v64 (F := Ideal) x0 x2 x3 x4 i = ∑ o : Fin 2048, Spec.contrib (bx x3) (lb x4) (dx x0) (dl x2) o := by
  rw [val_main_v64_apply, val_main_cst_5_apply, Ideal.ofBits_def, Ideal.ofBits_zero_f32, zero_add, sum_idx1]
  exact Finset.sum_congr rfl fun o _ => v63_at x0 x2 x3 x4 o

/-- The result: the averaged loss. -/
theorem loss_eq :
    val_main_v65 (F := Ideal) x0 x2 x3 x4 = fun _ => Spec.loss (bx x3) (lb x4) (dx x0) (dl x2) := by
  funext i
  rw [val_main_v65_apply, v64_at, v60_at, Ideal.hostDivf_def]
  rfl

end Stages

/-- The reference's result is the loss of the specification over the argument arrays. -/
theorem result_eq (x0 : (⟨S8732x4, .f32⟩ : BufTy).Contents (Elt Ideal)) (x2 : (⟨S8732, .i32⟩ : BufTy).Contents (Elt Ideal))
    (x3 : (⟨S2048x4, .f32⟩ : BufTy).Contents (Elt Ideal)) (x4 : (⟨S2048, .i32⟩ : BufTy).Contents (Elt Ideal)) :
    Cert.ReferenceIdeal.Read.val_main_v65 (F := Ideal) x0 x2 x3 x4
      = fun _ => Cert.Spec.loss (O := Fin 2048) (D := Fin 8732) (fun o k => x3 (ix2 o k)) (fun o => x4 (ix1 o))
          (fun d k => x0 (ix2 d k)) (fun d => x2 (ix1 d)) :=
  loss_eq x0 x2 x3 x4

end Cert.ReferenceIdeal.RefValue

end
-- ==== Proof.RefRunHand.lean ====
/-
  The reference's run, read stretch by stretch: after its 80 operations the result buffer holds the value that the
  stages of the reference assign to the argument arrays, and the arguments are unchanged.

  The operation list is cut into six consecutive stretches. For each stretch and each buffer a later stretch reads,
  one lemma says what the buffer holds after the stretch, over an arbitrary valuation before it: a value written by
  the stretch is the stage's function of the buffers the stretch reads, a buffer it does not write keeps its contents.
  Chaining the six gives the contents after the whole list.
-/
import proofs.«150649_j31619549233713_1_alg».proof.Proof.RefRun
import proofs.«150649_j31619549233713_1_alg».proof.Proof.RefRead
import Idealize.ShloMosaic.Lib.StableHlo.Run

noncomputable section

namespace Cert.ReferenceIdeal.RefRunHand

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The operation list in six stretches

The 80 operations are cut after the 24th (the overlap area is written), the 46th (both box areas), the 58th (the
overlap matrix and the label mask), the 64th (the best overlap per object) and the 70th (the matched bit per object and
the count); the last stretch holds the contributions, their sum and the quotient. -/

/-- The first 24 operations: up to the overlap area. -/
abbrev K1 : List (HloOp τ sig (Elt F)) := (ops (F := F)).take 24
/-- The operations after the first 24. -/
abbrev R1 : List (HloOp τ sig (Elt F)) := (ops (F := F)).drop 24
/-- Operations 24 to 45: the two box areas. -/
abbrev K2 : List (HloOp τ sig (Elt F)) := (R1 (F := F)).take 22
/-- The operations after the first 46. -/
abbrev R2 : List (HloOp τ sig (Elt F)) := (R1 (F := F)).drop 22
/-- Operations 46 to 57: the overlap matrix and the label mask. -/
abbrev K3 : List (HloOp τ sig (Elt F)) := (R2 (F := F)).take 12
/-- The operations after the first 58. -/
abbrev R3 : List (HloOp τ sig (Elt F)) := (R2 (F := F)).drop 12
/-- Operations 58 to 63: the masked matrix and its maximum per object. -/
abbrev K4 : List (HloOp τ sig (Elt F)) := (R3 (F := F)).take 6
/-- The operations after the first 64. -/
abbrev R4 : List (HloOp τ sig (Elt F)) := (R3 (F := F)).drop 6
/-- Operations 64 to 69: the matched bit per object and the count. -/
abbrev K5 : List (HloOp τ sig (Elt F)) := (R4 (F := F)).take 6
/-- Operations 70 to 79: the contributions, their sum and the quotient. -/
abbrev K6 : List (HloOp τ sig (Elt F)) := (R4 (F := F)).drop 6

/-- The list is its six stretches in order. -/
theorem ops_cut : (ops : List (HloOp τ sig (Elt F))) = K1 ++ (K2 ++ (K3 ++ (K4 ++ (K5 ++ K6)))) := by
  simp only [K1, K2, K3, K4, K5, K6, R1, R2, R3, R4, List.take_append_drop]

/-- Evaluates a stretch to its literal list and reads the fold off it. -/
local macro "stretch" : tactic => `(tactic|
  (simp only [K1, K2, K3, K4, K5, K6, R1, R2, R3, R4, ops, List.take_succ_cons, List.take_zero, List.drop_succ_cons,
     List.drop_zero]
   after_results_simp))

/-! ## First stretch: the overlap area, and the arguments untouched -/

theorem k1_v20 (U : Valuation τ sig (Elt F)) :
    after K1 U (Proc.devRef .tc main_v20)
      = val_main_v20 (F := F) (U (Proc.devRef .tc main_arg0)) (U (Proc.devRef .tc main_arg3)) := by
  stretch
  simp only [TRef.ofBuf, TRef.toBuf, cast_eq]
  rfl

theorem k1_arg0 (U : Valuation τ sig (Elt F)) :
    after K1 U (Proc.devRef .tc main_arg0) = U (Proc.devRef .tc main_arg0) := by stretch
theorem k1_arg2 (U : Valuation τ sig (Elt F)) :
    after K1 U (Proc.devRef .tc main_arg2) = U (Proc.devRef .tc main_arg2) := by stretch
theorem k1_arg3 (U : Valuation τ sig (Elt F)) :
    after K1 U (Proc.devRef .tc main_arg3) = U (Proc.devRef .tc main_arg3) := by stretch
theorem k1_arg4 (U : Valuation τ sig (Elt F)) :
    after K1 U (Proc.devRef .tc main_arg4) = U (Proc.devRef .tc main_arg4) := by stretch

/-! ## Second stretch: the box areas; the overlap area and the label arrays pass through -/

theorem k2_v31 (U : Valuation τ sig (Elt F)) :
    after K2 U (Proc.devRef .tc main_v31) = val_main_v31 (F := F) (U (Proc.devRef .tc main_arg3)) := by
  stretch
  rfl

theorem k2_v42 (U : Valuation τ sig (Elt F)) :
    after K2 U (Proc.devRef .tc main_v42) = val_main_v42 (F := F) (U (Proc.devRef .tc main_arg0)) := by
  stretch
  rfl

theorem k2_v20 (U : Valuation τ sig (Elt F)) :
    after K2 U (Proc.devRef .tc main_v20) = U (Proc.devRef .tc main_v20) := by stretch
theorem k2_arg2 (U : Valuation τ sig (Elt F)) :
    after K2 U (Proc.devRef .tc main_arg2) = U (Proc.devRef .tc main_arg2) := by stretch
theorem k2_arg4 (U : Valuation τ sig (Elt F)) :
    after K2 U (Proc.devRef .tc main_arg4) = U (Proc.devRef .tc main_arg4) := by stretch

/-! ## Third stretch: the overlap matrix from the three areas, the mask from the labels -/

theorem k3_v49 (U : Valuation τ sig (Elt F)) (x0 : (⟨S8732x4, .f32⟩ : BufTy).Contents (Elt F))
    (x3 : (⟨S2048x4, .f32⟩ : BufTy).Contents (Elt F))
    (h31 : U (Proc.devRef .tc main_v31) = val_main_v31 (F := F) x3)
    (h42 : U (Proc.devRef .tc main_v42) = val_main_v42 (F := F) x0)
    (h20 : U (Proc.devRef .tc main_v20) = val_main_v20 (F := F) x0 x3) :
    after K3 U (Proc.devRef .tc main_v49) = val_main_v49 (F := F) x0 x3 := by
  stretch
  rw [h31, h42, h20]
  rfl

theorem k3_v54 (U : Valuation τ sig (Elt F)) :
    after K3 U (Proc.devRef .tc main_v54)
      = val_main_v54 (F := F) (U (Proc.devRef .tc main_arg2)) (U (Proc.devRef .tc main_arg4)) := by
  stretch
  rfl

/-! ## Fourth stretch: the masked matrix and its maximum per object; the mask passes through -/

theorem k4_v56 (U : Valuation τ sig (Elt F)) (x0 : (⟨S8732x4, .f32⟩ : BufTy).Contents (Elt F))
    (x2 : (⟨S8732, .i32⟩ : BufTy).Contents (Elt F)) (x3 : (⟨S2048x4, .f32⟩ : BufTy).Contents (Elt F))
    (x4 : (⟨S2048, .i32⟩ : BufTy).Contents (Elt F))
    (h54 : U (Proc.devRef .tc main_v54) = val_main_v54 (F := F) x2 x4)
    (h49 : U (Proc.devRef .tc main_v49) = val_main_v49 (F := F) x0 x3) :
    after K4 U (Proc.devRef .tc main_v56) = val_main_v56 (F := F) x0 x2 x3 x4 := by
  stretch
  simp only [TRef.ofBuf, TRef.toBuf, cast_eq]
  rw [h54, h49]
  unfold val_main_v56 val_main_v55 val_main_call1_v1 val_main_call1_v0 val_main_cst_0 val_main_cst_1
  rfl

theorem k4_v54 (U : Valuation τ sig (Elt F)) :
    after K4 U (Proc.devRef .tc main_v54) = U (Proc.devRef .tc main_v54) := by stretch

/-! ## Fifth stretch: the matched bit per object and the count, from the mask; the maxima pass through -/

theorem k5_v57 (U : Valuation τ sig (Elt F)) (x2 : (⟨S8732, .i32⟩ : BufTy).Contents (Elt F))
    (x4 : (⟨S2048, .i32⟩ : BufTy).Contents (Elt F))
    (h54 : U (Proc.devRef .tc main_v54) = val_main_v54 (F := F) x2 x4) :
    after K5 U (Proc.devRef .tc main_v57) = val_main_v57 (F := F) x2 x4 := by
  stretch
  rw [h54]
  unfold val_main_v57 val_main_c
  rfl

theorem k5_v60 (U : Valuation τ sig (Elt F)) (x2 : (⟨S8732, .i32⟩ : BufTy).Contents (Elt F))
    (x4 : (⟨S2048, .i32⟩ : BufTy).Contents (Elt F))
    (h54 : U (Proc.devRef .tc main_v54) = val_main_v54 (F := F) x2 x4) :
    after K5 U (Proc.devRef .tc main_v60) = val_main_v60 (F := F) x2 x4 := by
  stretch
  rw [h54]
  unfold val_main_v60 val_main_v59 val_main_v58 val_main_v57 val_main_c val_main_c_2
  rfl

theorem k5_v56 (U : Valuation τ sig (Elt F)) :
    after K5 U (Proc.devRef .tc main_v56) = U (Proc.devRef .tc main_v56) := by stretch

/-! ## Sixth stretch: the contributions, their sum and the quotient -/

theorem k6_v65 (U : Valuation τ sig (Elt F)) (x0 : (⟨S8732x4, .f32⟩ : BufTy).Contents (Elt F))
    (x2 : (⟨S8732, .i32⟩ : BufTy).Contents (Elt F)) (x3 : (⟨S2048x4, .f32⟩ : BufTy).Contents (Elt F))
    (x4 : (⟨S2048, .i32⟩ : BufTy).Contents (Elt F))
    (h56 : U (Proc.devRef .tc main_v56) = val_main_v56 (F := F) x0 x2 x3 x4)
    (h57 : U (Proc.devRef .tc main_v57) = val_main_v57 (F := F) x2 x4)
    (h60 : U (Proc.devRef .tc main_v60) = val_main_v60 (F := F) x2 x4) :
    after K6 U (Proc.devRef .tc main_v65) = val_main_v65 (F := F) x0 x2 x3 x4 := by
  stretch
  simp only [TRef.ofBuf, TRef.toBuf, cast_eq]
  rw [h56, h57, h60]
  unfold val_main_v65 val_main_v64 val_main_v63 val_main_v62 val_main_v61 val_main_cst_3 val_main_call2_v1
    val_main_call2_v0 val_main_cst_4 val_main_cst_5
  rfl

/-! ## The whole list -/

/-- After all 80 operations the result buffer holds the reference's value of the argument arrays. -/
theorem after_v65 (V : Valuation τ sig (Elt F)) :
    after ops V (Proc.devRef .tc main_v65)
      = val_main_v65 (F := F) (V (Proc.devRef .tc main_arg0)) (V (Proc.devRef .tc main_arg2))
          (V (Proc.devRef .tc main_arg3)) (V (Proc.devRef .tc main_arg4)) := by
  rw [ops_cut, StableHlo.after_append, StableHlo.after_append, StableHlo.after_append, StableHlo.after_append,
    StableHlo.after_append]
  -- the mask and the overlap matrix after the first three stretches
  have H54 : after K3 (after K2 (after K1 V)) (Proc.devRef .tc main_v54)
      = val_main_v54 (F := F) (V (Proc.devRef .tc main_arg2)) (V (Proc.devRef .tc main_arg4)) := by
    rw [k3_v54, k2_arg2, k2_arg4, k1_arg2, k1_arg4]
  have H49 : after K3 (after K2 (after K1 V)) (Proc.devRef .tc main_v49)
      = val_main_v49 (F := F) (V (Proc.devRef .tc main_arg0)) (V (Proc.devRef .tc main_arg3)) := by
    refine k3_v49 _ _ _ ?_ ?_ ?_
    · rw [k2_v31, k1_arg3]
    · rw [k2_v42, k1_arg0]
    · rw [k2_v20, k1_v20]
  -- the mask is still there after the fourth
  have H54' : after K4 (after K3 (after K2 (after K1 V))) (Proc.devRef .tc main_v54)
      = val_main_v54 (F := F) (V (Proc.devRef .tc main_arg2)) (V (Proc.devRef .tc main_arg4)) := by
    rw [k4_v54]; exact H54
  refine k6_v65 _ _ _ _ _ ?_ ?_ ?_
  · rw [k5_v56]; exact k4_v56 _ _ _ _ _ H54 H49
  · exact k5_v57 _ _ _ H54'
  · exact k5_v60 _ _ _ H54'
/-- On every device, for any float values, from any memory with zero counters: every weakly fair execution of the
    reference terminates with its result buffer at the reference's value of the argument arrays, the arguments
    unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
          = val_main_v65 (F := F) (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v65).trans (after_v65 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRunHand

end
-- ==== Proof.lean ====
/-
  The certificate of the matching loss: for every object, the largest intersection-over-union against the
  detections of its own label; the loss is the sum of `1 − best` over the matched objects divided by their number.

  The kernel walks the 2048 objects in 8 tiles of 256 rows and the detections — padded to 10240 with zero boxes of
  label −1 — in 5 tiles of 2048 lanes, keeping per row a running maximum (from −∞, the named constant) and a running
  match flag across the detection tiles, folding each object tile's share into two accumulators at its last
  detection tile, and dividing at the very last grid point.  The reference takes the maximum, the any and the sums
  over whole axes.  On the extended reals a maximum and a sum may be taken tile by tile in any grouping, the padded
  lanes are masked to −∞ for every object whose label is not −1 (the precondition: labels are non-negative), and
  the count of matched objects is the same number added as flags or as integers: one function of the arguments,
  `Cert.Spec.loss` (Spec.lean).
  Kernel side: PieceReads (what a grid point leaves, per control case), Steps, Invariant (induction over the grid),
  KernelValue (the write-back, the reshape after the region, the padding).  Reference side: RefValue over the
  operation-by-operation reading of the reference, RefRunHand its run.
-/
import proofs.«150649_j31619549233713_1_alg».proof.Defs
import proofs.«150649_j31619549233713_1_alg».proof.Proof.Gen.Kernel
import proofs.«150649_j31619549233713_1_alg».proof.Proof.Gen.Kernel.Skeleton
import proofs.«150649_j31619549233713_1_alg».proof.Proof.Gen.Kernel.Launch
import proofs.«150649_j31619549233713_1_alg».proof.Proof.Gen.Kernel.Points
import proofs.«150649_j31619549233713_1_alg».proof.Proof.Gen.Kernel.Frame
import proofs.«150649_j31619549233713_1_alg».proof.Proof.Gen.KernelIdeal
import proofs.«150649_j31619549233713_1_alg».proof.Proof.Gen.KernelIdeal.Skeleton
import proofs.«150649_j31619549233713_1_alg».proof.Proof.Gen.KernelIdeal.Launch
import proofs.«150649_j31619549233713_1_alg».proof.Proof.Gen.KernelIdeal.Points
import proofs.«150649_j31619549233713_1_alg».proof.Proof.Gen.KernelIdeal.Frame
import proofs.«150649_j31619549233713_1_alg».proof.Proof.Gen.ReferenceIdeal
import proofs.«150649_j31619549233713_1_alg».proof.Proof.Gen.Pre_finite_inputs
import proofs.«150649_j31619549233713_1_alg».proof.Proof.KernelValue
import proofs.«150649_j31619549233713_1_alg».proof.Proof.RefValue
import proofs.«150649_j31619549233713_1_alg».proof.Proof.RefRunHand
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRunHand.run_val (F := Ideal) m ρ)

/-- The two rewrites of the idealization: both occurrences of the mask literal are the named −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- Both programs end at the loss of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.loss (O := Fin 2048) (D := Fin 8732)
      (fun o k => (m ((c.tc : Thread Cert.KernelIdeal.nD Cert.KernelIdeal.τ).loc Cert.KernelIdeal.main_arg3) : Cert.KernelIdeal.S2048x4.Idx → EReal) (ix2 o k))
      (fun o => (m ((c.tc : Thread Cert.KernelIdeal.nD Cert.KernelIdeal.τ).loc Cert.KernelIdeal.main_arg4) : Cert.KernelIdeal.S2048.Idx → BitVec 32) (ix1 o))
      (fun d k => (m ((c.tc : Thread Cert.KernelIdeal.nD Cert.KernelIdeal.τ).loc Cert.KernelIdeal.main_arg0) : Cert.KernelIdeal.S8732x4.Idx → EReal) (ix2 d k))
      (fun d => (m ((c.tc : Thread Cert.KernelIdeal.nD Cert.KernelIdeal.τ).loc Cert.KernelIdeal.main_arg2) : Cert.KernelIdeal.S8732.Idx → BitVec 32) (ix1 d)), ?_, ?_⟩
  · refine (θ_run Cert.KernelIdeal.defs _ _).mono (fun _ h c => ⟨(h c).1.trans ?_, (h c).2⟩)
      (Cert.KernelIdeal.KV.run_arrays m ρ)
    funext _
    exact Cert.KernelIdeal.KV.lossK_eq m hpre c
  · refine (θ_run Cert.ReferenceIdeal.defs _ _).mono (fun _ h c => ⟨(h c).1.trans ?_, (h c).2⟩)
      (Cert.ReferenceIdeal.RefRunHand.run_val (F := Ideal) m' ρ')
    rw [(hagree c).1, (hagree c).2.2.1, (hagree c).2.2.2.1, (hagree c).2.2.2.2]
    exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
